-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S1x128 : Shape := ⟨2, ![1, 128]⟩
abbrev S100000x64 : Shape := ⟨2, ![100000, 64]⟩
abbrev S5000x64 : Shape := ⟨2, ![5000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 57
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S64, .f32⟩
  | .local _ .vmem, ⟨15, _⟩ => ⟨S128x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x64, .f32⟩
  | .hbm, ⟨91, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000x1_S100000x64_0_1 : S100000x1.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelHost.lean ====
/-
  The kernel program's host operations around its two launches.

  Before the first launch the host slices the edge list into its source row and its destination row, counts the edges
  arriving at each node, clamps the count below at one and takes its RECIPROCAL as a column (`recipCol`); it gathers the
  input rows at the sources, adds them up at the destinations (`aggOf`) and multiplies each row by the reciprocal
  (`scaleRows`): the mean over a node's incoming edges, as a product. Between the launches it does the same to the first
  launch's output, with the same rows and the same reciprocal column.
-/
import proofs.«154245_j29729763623350_1_alg».proof.Proof.Gen.KernelIdeal.Frame
import Idealize.ShloMosaic.Lib.StableHlo.Run

noncomputable section

namespace Cert.KernelIdeal.HostFn

open Cert.KernelIdeal Cert.KernelIdeal.Gen Idealize.ShloMosaic Idealize.ShloMosaic.TcCoe Idealize.SL.Sem
open Idealize.ShloMosaic.StableHlo

variable {F : FTy → Type} [FloatOps F]

/-! ## The functions -/

/-- Row 0 of the edge list: each edge's source node. -/
def edgeRow0 (e : IVec S2x1600000 32) : IVec S1600000 32 :=
  shapeCast S1600000 (extractStridedSlice S1x1600000 ![0, 0] e slices_S2x1600000_S1x1600000_0_0) shapeCasts_S1x1600000_S1600000
/-- Row 1 of the edge list: each edge's destination node. -/
def edgeRow1 (e : IVec S2x1600000 32) : IVec S1600000 32 :=
  shapeCast S1600000 (extractStridedSlice S1x1600000 ![1, 0] e slices_S2x1600000_S1x1600000_1_0) shapeCasts_S1x1600000_S1600000

/-- The gather's index column from the source row: a negative index wrapped once by the number of nodes. -/
def srcIdxOf (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The sum, at each node, of the rows of `y` at the sources `s` of the edges whose destination `d` is the node. -/
def aggOf (y : FVec F S100000x128 .f32) (s d : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 y (srcIdxOf s))

/-- The number of edges whose destination `d` is each node, clamped below at one. -/
def dmaxOf (d : IVec S1600000 32) : FVec F S100000 .f32 :=
  maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 d)
      (broadcastInDim S1600000 ![] bcast_S_S1600000 (constant S_ .f32 0x3F800000#32)))
    (broadcastInDim S100000 ![] bcast_S_S100000 (constant S_ .f32 0x3F800000#32))

/-- The reciprocals `1 / d` as a column. -/
def recipCol (d : FVec F S100000 .f32) : FVec F S100000x1 .f32 :=
  broadcastInDim S100000x1 ![0] bcast_S100000_S100000x1_0
    (Host.divf (broadcastInDim S100000 ![] bcast_S_S100000 (constant S_ .f32 0x3F800000#32)) d)

/-- Each row of `A` times that row's entry of the column `r`. -/
def scaleRows (A : FVec F S100000x128 .f32) (r : FVec F S100000x1 .f32) : FVec F S100000x128 .f32 :=
  mulf A (broadcastInDim S100000x128 ![0, 1] bcast_S100000x1_S100000x128_0_1 r)

/-! ## What the two host stretches leave, from arbitrary contents -/

section Stretches

variable (W : Valuation τ sig (Elt F))

set_option maxRecDepth 8192 in
/-- After the first stretch the first launch's mean operand holds the aggregated input rows scaled by the reciprocal
    clamped degrees. -/
theorem host0_mean :
    after (hostOps0 (F := F)) W (Proc.devRef .tc main_v24)
      = scaleRows (aggOf (W (Proc.devRef .tc main_arg0)) (edgeRow0 (W (Proc.devRef .tc main_arg1))) (edgeRow1 (W (Proc.devRef .tc main_arg1))))
          (recipCol (dmaxOf (edgeRow1 (W (Proc.devRef .tc main_arg1))))) := by
  simp only [hostOps0]
  after_results_simp
  rfl

set_option maxRecDepth 8192 in
theorem host0_src : after (hostOps0 (F := F)) W (Proc.devRef .tc main_v1) = edgeRow0 (W (Proc.devRef .tc main_arg1)) := by
  simp only [hostOps0]
  after_results_simp
  rfl
set_option maxRecDepth 8192 in
theorem host0_dst : after (hostOps0 (F := F)) W (Proc.devRef .tc main_v3) = edgeRow1 (W (Proc.devRef .tc main_arg1)) := by
  simp only [hostOps0]
  after_results_simp
  rfl
set_option maxRecDepth 8192 in
theorem host0_recip : after (hostOps0 (F := F)) W (Proc.devRef .tc main_v12) = recipCol (dmaxOf (edgeRow1 (W (Proc.devRef .tc main_arg1)))) := by
  simp only [hostOps0]
  after_results_simp
  rfl

set_option maxRecDepth 8192 in
theorem host0_arg0 : after (hostOps0 (F := F)) W (Proc.devRef .tc main_arg0) = W (Proc.devRef .tc main_arg0) := by simp only [hostOps0]; after_results_simp
set_option maxRecDepth 8192 in
theorem host0_arg2 : after (hostOps0 (F := F)) W (Proc.devRef .tc main_arg2) = W (Proc.devRef .tc main_arg2) := by simp only [hostOps0]; after_results_simp
set_option maxRecDepth 8192 in
theorem host0_arg3 : after (hostOps0 (F := F)) W (Proc.devRef .tc main_arg3) = W (Proc.devRef .tc main_arg3) := by simp only [hostOps0]; after_results_simp
set_option maxRecDepth 8192 in
theorem host0_arg4 : after (hostOps0 (F := F)) W (Proc.devRef .tc main_arg4) = W (Proc.devRef .tc main_arg4) := by simp only [hostOps0]; after_results_simp
set_option maxRecDepth 8192 in
theorem host0_arg5 : after (hostOps0 (F := F)) W (Proc.devRef .tc main_arg5) = W (Proc.devRef .tc main_arg5) := by simp only [hostOps0]; after_results_simp
set_option maxRecDepth 8192 in
theorem host0_arg6 : after (hostOps0 (F := F)) W (Proc.devRef .tc main_arg6) = W (Proc.devRef .tc main_arg6) := by simp only [hostOps0]; after_results_simp
set_option maxRecDepth 8192 in
theorem host0_arg7 : after (hostOps0 (F := F)) W (Proc.devRef .tc main_arg7) = W (Proc.devRef .tc main_arg7) := by simp only [hostOps0]; after_results_simp

/-- After the second stretch the second launch's mean operand holds the aggregated hidden features scaled by the
    reciprocal column the first stretch left. -/
theorem host1_mean :
    after (hostOps1 (F := F)) W (Proc.devRef .tc main_v37)
      = scaleRows (aggOf (W (Proc.devRef .tc main_v25)) (W (Proc.devRef .tc main_v1)) (W (Proc.devRef .tc main_v3))) (W (Proc.devRef .tc main_v12)) := by
  simp only [hostOps1]
  after_results_simp
  rfl

theorem host1_hidden : after (hostOps1 (F := F)) W (Proc.devRef .tc main_v25) = W (Proc.devRef .tc main_v25) := by simp only [hostOps1]; after_results_simp
theorem host1_arg5 : after (hostOps1 (F := F)) W (Proc.devRef .tc main_arg5) = W (Proc.devRef .tc main_arg5) := by simp only [hostOps1]; after_results_simp
theorem host1_arg6 : after (hostOps1 (F := F)) W (Proc.devRef .tc main_arg6) = W (Proc.devRef .tc main_arg6) := by simp only [hostOps1]; after_results_simp
theorem host1_arg7 : after (hostOps1 (F := F)) W (Proc.devRef .tc main_arg7) = W (Proc.devRef .tc main_arg7) := by simp only [hostOps1]; after_results_simp

end Stretches

end Cert.KernelIdeal.HostFn

end
-- ==== Proof.SageSpec.lean ====
/-
  One SAGE layer over the extended reals, as a function of whole arrays.

  For a node-feature array `x` (one row per node), the aggregated neighbour rows `M` (one row per node), two weight
  matrices and a bias, the layer's pre-activation at node `r` and output column `j` is

      lin r j = (∑ q, M (r, q) · Wl (q, j)) + b j + ∑ q, x (r, q) · Wr (q, j),

  which reads only ROW `r` of `M` and of `x`. The first layer clamps it below at zero (`layer1`); the second subtracts the
  row's maximum and then the logarithm of the row's sum of exponentials (`layer2`: a log-softmax along the columns). The
  mean over a node's incoming edges is the aggregated sum divided, row by row, by the clamped in-degree (`meanDiv`).

  Two small laws of the extended reals are all the comparison of the two programs needs: multiplying by the
  reciprocal `1 / d` is dividing by `d` whenever `d ≠ 0` (at the infinities too, since both are the product with
  `d⁻¹`), and a maximum with one is never zero.
-/
import Idealize.ShloMosaic.PureOps.Ideal.Laws
import Idealize.ShloMosaic.Lib.ValueIdx

noncomputable section

open scoped BigOperators

namespace Cert.Sage

open Idealize.ShloMosaic Idealize.ShloMosaic.ValueIdx

variable {N D O : Nat}

/-- The layer's pre-activation at node `r`, column `j`: neighbour term, bias, root term, added in that order. -/
def lin (M x : FVec Ideal ⟨2, ![N, D]⟩ .f32) (Wl Wr : FVec Ideal ⟨2, ![D, O]⟩ .f32) (b : FVec Ideal ⟨1, ![O]⟩ .f32)
    (r : Fin N) (j : Fin O) : EReal :=
  (∑ q : Fin D, M (ix2 r q) * Wl (ix2 q j)) + b (ix1 j) + ∑ q : Fin D, x (ix2 r q) * Wr (ix2 q j)

/-- The first layer: the pre-activation clamped below at zero. -/
def layer1 (M x : FVec Ideal ⟨2, ![N, D]⟩ .f32) (Wl Wr : FVec Ideal ⟨2, ![D, O]⟩ .f32) (b : FVec Ideal ⟨1, ![O]⟩ .f32) :
    FVec Ideal ⟨2, ![N, O]⟩ .f32 :=
  fun e => max (lin M x Wl Wr b (e 0) (e 1)) 0

/-- The largest entry of row `r`, as the fold of `max` from `-∞` over the row's columns. -/
def rowMax (z : Fin N → Fin O → EReal) (r : Fin N) : EReal := (Finset.univ : Finset (Fin O)).fold max ⊥ (z r)

/-- The second layer: the pre-activation shifted by its row's maximum, minus the logarithm of the row's sum of
    exponentials of the shifted entries. -/
def layer2 (M x : FVec Ideal ⟨2, ![N, D]⟩ .f32) (Wl Wr : FVec Ideal ⟨2, ![D, O]⟩ .f32) (b : FVec Ideal ⟨1, ![O]⟩ .f32) :
    FVec Ideal ⟨2, ![N, O]⟩ .f32 :=
  fun e => (lin M x Wl Wr b (e 0) (e 1) - rowMax (lin M x Wl Wr b) (e 0))
    - Ideal.log (∑ j : Fin O, Ideal.exp (lin M x Wl Wr b (e 0) j - rowMax (lin M x Wl Wr b) (e 0)))

/-- Row-wise division of an array by a column of divisors. -/
def meanDiv (A : FVec Ideal ⟨2, ![N, D]⟩ .f32) (d : FVec Ideal ⟨1, ![N]⟩ .f32) : FVec Ideal ⟨2, ![N, D]⟩ .f32 :=
  fun e => Ideal.div (A e) (d (ix1 (e 0)))

/-- Off zero the quotient is the product with the inverse, so multiplying by `1 / d` is dividing by `d`: on every
    extended real, the infinities included. -/
theorem mul_one_div (a d : EReal) (hd : d ≠ 0) : a * Ideal.div 1 d = Ideal.div a d := by
  unfold Ideal.div
  rw [if_neg hd, if_neg hd, one_mul]

/-- A maximum with one is at least one, so it is not zero. -/
theorem max_one_ne_zero (x : EReal) : max x 1 ≠ 0 :=
  ne_of_gt (lt_of_lt_of_le zero_lt_one (le_max_right x 1))

end Cert.Sage
-- ==== Proof.KernelMean.lean ====
/-
  The mean as a product is the mean as a quotient.

  The kernel program scales each row of the aggregated sums by the reciprocal `1 / d` of the node's clamped in-degree,
  where the reference divides the row by `d`. Over the extended reals the quotient by `d ≠ 0` IS the product with `d⁻¹`,
  and `1 / d` is `d⁻¹`, so the two agree at every value of the sum, the infinities included; and `d`, a maximum with
  one, is never zero. Read at an index: the reciprocal column, broadcast along the feature axis, is read at the row's
  entry, and that entry is `1 / d` at the row.
-/
import proofs.«154245_j29729763623350_1_alg».proof.Proof.KernelHost
import proofs.«154245_j29729763623350_1_alg».proof.Proof.SageSpec
import Idealize.ShloMosaic.Lib.IdealHost
import Idealize.ShloMosaic.Lib.Pipeline.Value
import Idealize.ShloMosaic.Lib.ValueIdx

noncomputable section

namespace Cert.KernelIdeal.HostFn

open Cert.KernelIdeal Cert.KernelIdeal.Gen Idealize.ShloMosaic Idealize.ShloMosaic.ValueIdx

/-- A scalar constant repeated over the nodes, read at a node: the constant. -/
theorem splat_nodes_apply (w : BitVec 32) (i : S100000.Idx) :
    broadcastInDim S100000 ![] bcast_S_S100000 (constant (F := Ideal) S_ .f32 w) i = Ideal.ofBits .f32 w := rfl

/-- The clamped degree at a node is a maximum with one, so it is not zero. -/
theorem dmaxOf_ne_zero (d : IVec S1600000 32) (i : S100000.Idx) : dmaxOf (F := Ideal) d i ≠ 0 := by
  unfold dmaxOf
  rw [maximumf_apply, splat_nodes_apply, Ideal.ofBits_one_f32]
  exact Cert.Sage.max_one_ne_zero _

/-- The reciprocal column at row `r`: one over the divisor at `r`. -/
theorem recipCol_apply (d : FVec Ideal S100000 .f32) (k : S100000x1.Idx) :
    recipCol (F := Ideal) d k = Ideal.div 1 (d (ix1 (k 0))) := by
  unfold recipCol
  rw [broadcastInDim_apply _ bcast_S100000_S100000x1_0 _ k (ix1 (k 0)) (fun a => match a with
    | ⟨0, _⟩ => by show (k 0).val = if (100000 : Nat) = 1 then 0 else (k 0).val; rw [if_neg (by decide)])]
  show Ideal.div (broadcastInDim S100000 ![] bcast_S_S100000 (constant (F := Ideal) S_ .f32 0x3F800000#32) (ix1 (k 0))) (d (ix1 (k 0))) = _
  rw [splat_nodes_apply, Ideal.ofBits_one_f32]

/-- Scaling the rows by the reciprocals of nonzero divisors divides the rows by the divisors. -/
theorem scaleRows_recipCol (A : FVec Ideal S100000x128 .f32) (d : FVec Ideal S100000 .f32) (hd : ∀ i, d i ≠ 0) :
    scaleRows (F := Ideal) A (recipCol d) = Cert.Sage.meanDiv A d := by
  funext e
  -- the column entry the broadcast along the feature axis reads at `e`: row `e 0`, the column's one entry
  let k1 : S100000x1.Idx := fun a => match a with
    | ⟨0, _⟩ => ⟨(e 0).val, (e 0).isLt⟩
    | ⟨1, _⟩ => ⟨0, Nat.one_pos⟩
  unfold scaleRows Cert.Sage.meanDiv
  rw [mulf_apply, broadcastInDim_apply _ bcast_S100000x1_S100000x128_0_1 _ e k1 (fun a => match a with
      | ⟨0, _⟩ => by show (e 0).val = if (100000 : Nat) = 1 then 0 else (e 0).val; rw [if_neg (by decide)]
      | ⟨1, _⟩ => by show 0 = if (1 : Nat) = 1 then 0 else (e 1).val; rw [if_pos rfl]),
    recipCol_apply]
  exact Cert.Sage.mul_one_div _ _ (hd _)

end Cert.KernelIdeal.HostFn

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.Region0Value.lean ====
/-
  Region 0's output array is the first layer of the arrays the region finds.

  The region runs over 20 grid points. Point t holds rows 5000·t … 5000·t + 4999 of the two row arrays (the aggregated
  neighbour means M and the node features x, both 100000 × 128) and the whole of the two 128 × 128 weight matrices and
  of the bias, and writes rows 5000·t … 5000·t + 4999 of the 100000 × 128 output.

  Three steps.
  (1) At block size the body's arithmetic is the layer: at (p, q) each of the two products into the zero block is the
      sum over k of the left factor at (p, k) times the right factor at (k, q); the bias, reshaped to one row and
      repeated over the 5000 rows, is the bias at q; rounding the factors to the narrower float type changes nothing
      over the extended reals; the zero word is 0; so the entry is max ((∑ M·Wl) + b + (∑ x·Wr)) 0.
  (2) The layer at (r, q) reads only row r of M and of x. Row p of point t's blocks is row 5000·t + p of the arrays, and
      the weight and bias blocks are the whole arrays, so what point t writes back is block t of the layer of the whole
      arrays. The block indices of the six windows are read off once over the 20 points.
  (3) Row r lies in the block of point r / 5000, so the blocks cover the output array, which therefore ends holding the
      layer of the whole arrays.
-/
import proofs.«154245_j29729763623350_1_alg».proof.Proof.Gen.KernelIdeal.Frame
import proofs.«154245_j29729763623350_1_alg».proof.Proof.SageSpec
import proofs.«154245_j29729763623350_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region0

open Idealize.ShloMosaic Idealize.ShloMosaic.TcCoe Idealize.SL.Sem Cert.KernelIdeal Cert.KernelIdeal.Gen
open Idealize.ShloMosaic.ValueIdx
open Idealize.ShloMosaic.Pipeline (Dat)

/-! ## (1) The body's arithmetic at block size is the layer -/

/-- The bias, reshaped to one row and repeated over the block's 5000 rows, read at (p, q): the bias at q. -/
theorem bias_row_apply (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- The body's 5000 × 128 by 128 × 128 product into the zero block, at entry (p, q): the sum over k of
    A (p, k) · B (k, q). -/
theorem product_apply (A : FVec Ideal S5000x128 .bf16) (B : FVec Ideal S128x128 .bf16) (p : Fin 5000) (q : Fin 128) :
    matmul dot_S5000x128_S128x128_S5000x128_1_0_0_1_n_n none A B (constant S5000x128 .f32 0x00000000#32) (ix2 p q)
      = ∑ k : Fin 128, A (ix2 p k) * B (ix2 k q) :=
  Cert.LibDotPlain.matmul_zero_plain 5000 128 128 none A B p q

/-- The body's one stored value, as a function of the five blocks it loads, is the layer of those blocks: the two
    products entry by entry, the bias row, the sums in the layer's order, and the maximum with the zero word, which is 0. -/
theorem payload_eq_layer1 (M x : Vec Ideal S5000x128 .f32) (Wl Wr : Vec Ideal S128x128 .f32) (b : Vec Ideal S128 .f32) :
    k0_pay1 M x Wl Wr b = Cert.Sage.layer1 M x Wl Wr b := by
  funext j
  obtain ⟨p, q, rfl⟩ : ∃ (p : Fin 5000) (q : Fin 128), j = ix2 p q := ⟨j 0, j 1, eq_ix2 j⟩
  unfold k0_pay1
  rw [maximumf_apply, addf_apply, addf_apply, broadcast_apply, product_apply, product_apply, bias_row_apply, shapeCast_self]
  rw [show (FloatOps.ofBits FTy.f32 0x00000000#32 : Ideal .f32) = 0 from Ideal.ofBits_zero_f32]
  rfl

/-! ## (2) What a point writes back is its block of the layer of the whole arrays -/

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- The block indices over the 20 grid points: the two row arrays and the output sit at block (t, 0), the two weight
    matrices and the bias at block 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The block of the neighbour means at point t, at (p, q), is the array at row 5000·t + p, column q. -/
theorem means_block_apply (c : Dev nD) (t : Fin cfg0.N) (y : S5000x128.Idx) (k : S100000x128.Idx)
    (hk0 : (k 0).val = 5000 * t.val + (y 0).val) (hk1 : (k 1).val = (y 1).val) :
    (iblk0 V c 0 t : Vec Ideal S5000x128 .f32) y = (V c main_v24 : S100000x128.Idx → EReal) k := by
  obtain ⟨e0, e1, -⟩ := block_indices t
  unfold iblk0
  rw [View.read_apply]
  show V c main_v24 _ = V c main_v24 _
  congr 1
  funext a
  apply Fin.ext
  match a with
  | ⟨0, _⟩ => show win0_0.index t 0 * 5000 + 1 * (y 0).val = (k 0).val; rw [e0, hk0]; omega
  | ⟨1, _⟩ => show win0_0.index t 1 * 128 + 1 * (y 1).val = (k 1).val; rw [e1, hk1]; omega

/-- The block of the node features at point t, at (p, q), is the array at row 5000·t + p, column q. -/
theorem features_block_apply (c : Dev nD) (t : Fin cfg0.N) (y : S5000x128.Idx) (k : S100000x128.Idx)
    (hk0 : (k 0).val = 5000 * t.val + (y 0).val) (hk1 : (k 1).val = (y 1).val) :
    (iblk0 V c 1 t : Vec Ideal S5000x128 .f32) y = (V c main_arg0 : S100000x128.Idx → EReal) k := by
  obtain ⟨-, -, e0, e1, -⟩ := block_indices t
  unfold iblk0
  rw [View.read_apply]
  show V c main_arg0 _ = V c main_arg0 _
  congr 1
  funext a
  apply Fin.ext
  match a with
  | ⟨0, _⟩ => show win0_1.index t 0 * 5000 + 1 * (y 0).val = (k 0).val; rw [e0, hk0]; omega
  | ⟨1, _⟩ => show win0_1.index t 1 * 128 + 1 * (y 1).val = (k 1).val; rw [e1, hk1]; omega

/-- The neighbour weight's one block is the whole matrix, at every point. -/
theorem neighbour_weight_block (c : Dev nD) (t : Fin cfg0.N) :
    (iblk0 V c 2 t : Vec Ideal S128x128 .f32) = (V c main_arg2 : S128x128.Idx → EReal) := by
  obtain ⟨-, -, -, -, e0, e1, -⟩ := block_indices t
  funext y
  unfold iblk0
  rw [View.read_apply]
  show V c main_arg2 _ = V c main_arg2 _
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- The bias's one block is the whole vector, at every point. -/
theorem bias_block (c : Dev nD) (t : Fin cfg0.N) :
    (iblk0 V c 3 t : Vec Ideal S128 .f32) = (V c main_arg3 : S128.Idx → EReal) := by
  obtain ⟨-, -, -, -, -, -, e0, -⟩ := block_indices t
  funext y
  unfold iblk0
  rw [View.read_apply]
  show V c main_arg3 _ = V c main_arg3 _
  congr 1
  funext a
  apply Fin.ext
  match a with
  | ⟨0, _⟩ => show win0_3.index t 0 * 128 + 1 * (y 0).val = (y 0).val; rw [e0]; omega

/-- The root weight's one block is the whole matrix, at every point. -/
theorem root_weight_block (c : Dev nD) (t : Fin cfg0.N) :
    (iblk0 V c 4 t : Vec Ideal S128x128 .f32) = (V c main_arg4 : S128x128.Idx → EReal) := by
  obtain ⟨-, -, -, -, -, -, -, e0, e1, -⟩ := block_indices t
  funext y
  unfold iblk0
  rw [View.read_apply]
  show V c main_arg4 _ = V c main_arg4 _
  congr 1
  funext a
  apply Fin.ext
  match a with
  | ⟨0, _⟩ => show win0_4.index t 0 * 128 + 1 * (y 0).val = (y 0).val; rw [e0]; omega
  | ⟨1, _⟩ => show win0_4.index t 1 * 128 + 1 * (y 1).val = (y 1).val; rw [e1]; omega

/-- The layer at (r, q) reads only row r of the two row arrays: blocks whose row p is the arrays' row r have, at (p, q),
    the layer of the whole arrays at (r, q). -/
theorem layer1_of_row (M x : FVec Ideal S100000x128 .f32) (Mb xb : FVec Ideal S5000x128 .f32)
    (Wl Wr Wl' Wr' : FVec Ideal S128x128 .f32) (b b' : FVec Ideal S128 .f32)
    (p : Fin 5000) (q : Fin 128) (k : S100000x128.Idx)
    (hM : ∀ s : Fin 128, Mb (ix2 p s) = M (ix2 (k 0) s)) (hx : ∀ s : Fin 128, xb (ix2 p s) = x (ix2 (k 0) s))
    (hq : (k 1).val = q.val) (hWl : Wl' = Wl) (hWr : Wr' = Wr) (hb : b' = b) :
    Cert.Sage.layer1 Mb xb Wl' Wr' b' (ix2 p q) = Cert.Sage.layer1 M x Wl Wr b k := by
  subst hWl hWr hb
  obtain ⟨r, s, rfl⟩ : ∃ (r : Fin 100000) (s : Fin 128), k = ix2 r s := ⟨k 0, k 1, eq_ix2 k⟩
  obtain rfl : s = q := Fin.ext hq
  have hM' : ∀ s' : Fin 128, Mb (ix2 p s') = M (ix2 r s') := hM
  have hx' : ∀ s' : Fin 128, xb (ix2 p s') = x (ix2 r s') := hx
  show max (Cert.Sage.lin Mb xb Wl' Wr' b' p s) 0 = max (Cert.Sage.lin M x Wl' Wr' b' r s) 0
  unfold Cert.Sage.lin
  simp only [hM', hx']

/-- What point t writes back to the output array is block t of the layer of the arrays the region finds. -/
theorem written_back_eq (c : Dev nD) (t : Fin cfg0.N) :
    (dat0 (F := Ideal) V c).flushed 5 t
      = ((cfg0.win 5).blk t).view.read (Elt Ideal)
          (Cert.Sage.layer1 (V c main_v24) (V c main_arg0) (V c main_arg2) (V c main_arg4) (V c main_arg3)) := by
  show (cfg0.win 5).cut (grid0.coords t) ((dat0 V c).after 5 t) = _
  rw [after0_5]
  unfold out0_5
  rw [View.canon_unit_zero zero_offsets2]
  simp only [View.ld_unit_zero (S := S5000x128) zero_offsets2, View.ld_unit_zero (S := S128x128) zero_offsets2,
    View.ld_unit_zero (S := S128) zero_offsets1]
  rw [payload_eq_layer1 (iblk0 V c 0 t) (iblk0 V c 1 t) (iblk0 V c 2 t) (iblk0 V c 4 t) (iblk0 V c 3 t)]
  obtain ⟨-, -, -, -, -, -, -, -, -, e0, e1⟩ := block_indices t
  funext j
  obtain ⟨p, q, rfl⟩ : ∃ (p : Fin 5000) (q : Fin 128), j = ix2 p q := ⟨j 0, j 1, eq_ix2 j⟩
  rw [View.read_apply]
  show Cert.Sage.layer1 (iblk0 V c 0 t) (iblk0 V c 1 t) (iblk0 V c 2 t) (iblk0 V c 4 t) (iblk0 V c 3 t) (ix2 p q)
      = Cert.Sage.layer1 (V c main_v24) (V c main_arg0) (V c main_arg2) (V c main_arg4) (V c main_arg3)
          (((cfg0.win 5).blk t).view.emb (ix2 p q))
  have hr : ((((cfg0.win 5).blk t).view.emb (ix2 p q)) 0).val = 5000 * t.val + p.val := by
    show win0_5.index t 0 * 5000 + 1 * p.val = 5000 * t.val + p.val
    rw [e0]; omega
  have hc : ((((cfg0.win 5).blk t).view.emb (ix2 p q)) 1).val = q.val := by
    show win0_5.index t 1 * 128 + 1 * q.val = q.val
    rw [e1]; omega
  exact layer1_of_row (V c main_v24) (V c main_arg0) (iblk0 V c 0 t) (iblk0 V c 1 t) (V c main_arg2) (V c main_arg4)
    (iblk0 V c 2 t) (iblk0 V c 4 t) (V c main_arg3) (iblk0 V c 3 t) p q (((cfg0.win 5).blk t).view.emb (ix2 p q))
    (fun s => means_block_apply V c t (ix2 p s) _ hr rfl) (fun s => features_block_apply V c t (ix2 p s) _ hr rfl) hc
    (neighbour_weight_block V c t) (root_weight_block V c t) (bias_block V c t)

/-! ## (3) The blocks cover the output array -/

/-- An index of the output array is in point t's block iff each coordinate is in the block's range on its axis. -/
theorem mem_block_iff (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v25).slice (win0_5.rect t)).set ↔ _
  rw [View.set_slice_whole, Rect.mem_set_unit]
  exact Iff.rfl

/-- Every index of the output array lies in the block of the point that its row divided by 5000 names. -/
theorem rows_covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, e0, e1⟩ := block_indices t
  refine ⟨t, flush0_5 t, ?_⟩
  rw [mem_block_iff]
  intro a
  match a with
  | ⟨0, _⟩ =>
    show win0_5.index t 0 * 5000 ≤ (i 0).val ∧ (i 0).val < win0_5.index t 0 * 5000 + 5000
    rw [e0, ht]; omega
  | ⟨1, _⟩ =>
    show win0_5.index t 1 * 128 ≤ (i 1).val ∧ (i 1).val < win0_5.index t 1 * 128 + 128
    rw [e1]; omega

/-- After the region's run its output array is the first layer of the arrays the region found. -/
theorem arr_eq (c : Dev nD) :
    (dat0 (F := Ideal) V c).arrAt 5 cfg0.N
      = Cert.Sage.layer1 (V c main_v24) (V c main_arg0) (V c main_arg2) (V c main_arg4) (V c main_arg3) :=
  (dat0 V c).arrAt_eq_of_cover 5 _ (fun t _ => written_back_eq V c t) rows_covered

end Cert.KernelIdeal.Region0

end
-- ==== Proof.Region1Value.lean ====
/-
  The second SAGE layer, as the second region computes it, read off the region's output array.

  The region runs over 20 grid points. Point `t` holds rows `5000·t … 5000·t + 4999` of the two node arrays (the
  neighbour means `M` and the node features `x`, 128 columns each), the whole of the two 128 × 64 weight matrices and
  of the 64-entry bias, and writes rows `5000·t … 5000·t + 4999` of the 100000 × 64 output.

  Three steps.

  1. At block size. The body's arithmetic on the blocks it loaded is the layer of those blocks. Its pre-activation at
     `(p, q)` is `(∑ k, M (p, k) · Wl (k, q)) + b q + ∑ k, x (p, k) · Wr (k, q)`: each of the two products, accumulated
     into a zero block, is a plain sum of products over the 128 contracted positions (narrowing a factor to a shorter
     format is the identity on the extended reals), and the bias, reshaped to one row and repeated down the 5000 rows,
     reads as `b q`. The maximum along the columns is the fold of `max` from `-∞` over the row's 64 entries; kept as a
     column and repeated along the 64 columns it reads as the row's maximum at every column of that row. The sum along
     the columns of the exponentials of the shifted entries, its logarithm kept as a column and repeated likewise, is
     the row's log-sum-exp. So the block the body stores is the log-softmax along the columns of the pre-activation.

  2. At a grid point. The layer at node `r` reads `M` and `x` only through their row `r`. Row `p` of a node block
     at point `t` is row `5000·t + p` of the array, and the weight and bias blocks are the whole arrays; so the layer of
     the blocks at `(p, q)` is the layer of the whole arrays at `(5000·t + p, q)`, and what point `t` writes back is
     block `t` of the layer of the whole arrays.

  3. The array. Row `r` of the output lies in the block of point `r / 5000` and every column in that block's one
     column range, so the 20 blocks cover the array, which therefore ends holding the layer at every index.
-/
import proofs.«154245_j29729763623350_1_alg».proof.Proof.Gen.KernelIdeal.Frame
import proofs.«154245_j29729763623350_1_alg».proof.Proof.SageSpec
import proofs.«154245_j29729763623350_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region1

open Idealize.ShloMosaic Idealize.ShloMosaic.TcCoe Idealize.SL.Sem Cert.KernelIdeal Cert.KernelIdeal.Gen
open Idealize.ShloMosaic.ValueIdx

/-! ## Two keepdims layout forms read at an index -/

/-- An `[a]` array cast to the column `[a, 1]` reads, at `(p, u)`, the operand at `p`, whatever the unit
    coordinate `u`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's pre-activation at an entry -/

/-- The body's pre-activation: the product of the neighbour block with the left weights, plus the bias row, plus the
    product of the root block with the right weights, added in that order. -/
def pre (v0 v3 : Vec Ideal S5000x128 .f32) (v6 v8 : Vec Ideal S128x64 .f32) (v11 : Vec Ideal S64 .f32) :
    FVec Ideal S5000x64 .f32 :=
  addf (addf (matmul dot_S5000x128_S128x64_S5000x64_1_0_0_1_n_n none
        (truncf .bf16 (shapeCast S5000x128 v0 shapeCasts_S5000x128_S5000x128) bitsLt_bf16_f32)
        (truncf .bf16 v6 bitsLt_bf16_f32) (constant S5000x64 .f32 0x00000000#32))
      (broadcastTo S5000x64 (shapeCast S1x64 v11 shapeCasts_S64_S1x64) broadcasts_S1x64_S5000x64))
    (matmul dot_S5000x128_S128x64_S5000x64_1_0_0_1_n_n none
      (truncf .bf16 (shapeCast S5000x128 v3 shapeCasts_S5000x128_S5000x128) bitsLt_bf16_f32)
      (truncf .bf16 v8 bitsLt_bf16_f32) (constant S5000x64 .f32 0x00000000#32))

/-- The dimension numbers of the body's two products are the plain ones: rows by columns, no batch axis. -/
theorem dot_plain : dot_S5000x128_S128x64_S5000x64_1_0_0_1_n_n = DotDims.plain 5000 128 64 := rfl

/-- At entry `(p, q)` the body's pre-activation is the layer's, of the blocks the body loaded. -/
theorem pre_apply (v0 v3 : Vec Ideal S5000x128 .f32) (v6 v8 : Vec Ideal S128x64 .f32) (v11 : Vec Ideal S64 .f32)
    (p : Fin 5000) (q : Fin 64) :
    pre v0 v3 v6 v8 v11 (ix2 p q) = Cert.Sage.lin v0 v3 v6 v8 v11 p q := by
  unfold pre Cert.Sage.lin
  rw [addf_apply, addf_apply]
  have hM : matmul dot_S5000x128_S128x64_S5000x64_1_0_0_1_n_n none
        (truncf .bf16 (shapeCast S5000x128 v0 shapeCasts_S5000x128_S5000x128) bitsLt_bf16_f32)
        (truncf .bf16 v6 bitsLt_bf16_f32) (constant (F := Ideal) S5000x64 .f32 0x00000000#32) (ix2 p q)
      = ∑ k : Fin 128, v0 (ix2 p k) * v6 (ix2 k q) :=
    (Cert.LibDotPlain.matmul_zero_plain 5000 128 64 none
      (truncf .bf16 (shapeCast S5000x128 v0 shapeCasts_S5000x128_S5000x128) bitsLt_bf16_f32)
      (truncf .bf16 v6 bitsLt_bf16_f32) p q).trans
      (Finset.sum_congr rfl fun k _ => by rw [truncf_apply, truncf_apply, shapeCast_self])
  have hX : matmul dot_S5000x128_S128x64_S5000x64_1_0_0_1_n_n none
        (truncf .bf16 (shapeCast S5000x128 v3 shapeCasts_S5000x128_S5000x128) bitsLt_bf16_f32)
        (truncf .bf16 v8 bitsLt_bf16_f32) (constant (F := Ideal) S5000x64 .f32 0x00000000#32) (ix2 p q)
      = ∑ k : Fin 128, v3 (ix2 p k) * v8 (ix2 k q) :=
    (Cert.LibDotPlain.matmul_zero_plain 5000 128 64 none
      (truncf .bf16 (shapeCast S5000x128 v3 shapeCasts_S5000x128_S5000x128) bitsLt_bf16_f32)
      (truncf .bf16 v8 bitsLt_bf16_f32) p q).trans
      (Finset.sum_congr rfl fun k _ => by rw [truncf_apply, truncf_apply, shapeCast_self])
  have hB : broadcastTo S5000x64 (shapeCast S1x64 v11 shapeCasts_S64_S1x64) broadcasts_S1x64_S5000x64 (ix2 p q)
      = v11 (ix1 q) :=
    (broadcastTo_1b_ab_apply _ broadcasts_S1x64_S5000x64 p q).trans
      (shapeCast_a_1a_apply v11 shapeCasts_S64_S1x64 (0 : Fin 1) q)
  rw [hM, hX, hB]

/-! ## The rows' log-softmax at an entry -/

/-- The accumulator word of the row maximum denotes `-∞`. -/
theorem negInf : FloatOps.ofBits (F := Ideal) .f32 0xFF800000#32 = (⊥ : EReal) := by
  simp [Ideal.ofBits, Ideal.ieee]

/-- In a `[5000, 64]` block the index that a reduction along the columns inserts column `k` into, at row `p`, is
    `(p, k)`. -/
theorem lift_row (p : Fin 5000) (k : Fin 64) : reduces_S5000x64_S5000.lift (ix1 p) k = ix2 p k := by
  funext a
  apply Fin.ext
  match a with
  | ⟨0, _⟩ => rfl
  | ⟨1, _⟩ => rfl

/-- The maximum along the columns, at row `p`: the fold of `max` from `-∞` over the row's 64 entries. -/
theorem rowmax_apply (z : FVec Ideal S5000x64 .f32) (p : Fin 5000) :
    multiReduction (F := Ideal) .maximumf [1] S5000 z 0xFF800000#32 reduces_S5000x64_S5000 (.inl rfl) rfl (ix1 p)
      = Cert.Sage.rowMax (fun r j => z (ix2 r j)) p := by
  refine (Ideal.multiReduction_maximumf_single z 0xFF800000#32 reduces_S5000x64_S5000 (.inl rfl) rfl (ix1 p)).trans ?_
  rw [negInf]
  exact congrArg (fun f : Fin 64 → EReal => (Finset.univ : Finset (Fin 64)).fold max ⊥ f)
    (funext fun k => congrArg z (lift_row p k))

/-- The sum along the columns, at row `p`: the sum of the row's 64 entries. -/
theorem rowsum_apply (z : FVec Ideal S5000x64 .f32) (p : Fin 5000) :
    multiReduction (F := Ideal) .add [1] S5000 z 0x00000000#32 reduces_S5000x64_S5000 (.inl rfl) rfl (ix1 p)
      = ∑ j : Fin 64, z (ix2 p j) := by
  refine (Ideal.multiReduction_add_single z 0x00000000#32 reduces_S5000x64_S5000 (.inl rfl) rfl (ix1 p)).trans ?_
  exact Finset.sum_congr rfl fun k _ => congrArg z (lift_row p k)

/-- A per-row value kept as a column and spread over the 64 columns reads, at `(p, q)`, the value of row `p`. -/
theorem keepdims_apply (w : FVec Ideal S5000 .f32) (p : Fin 5000) (q : Fin 64) :
    broadcastTo S5000x64 (shapeCast S5000x1 w shapeCasts_S5000_S5000x1) broadcasts_S5000x1_S5000x64 (ix2 p q)
      = w (ix1 p) :=
  (broadcastTo_a1_ab_apply _ broadcasts_S5000x1_S5000x64 p q).trans
    (shapeCast_a_a1_apply w shapeCasts_S5000_S5000x1 p (0 : Fin 1))

/-- What the body does to its pre-activation block `z`: subtract each row's maximum, then the logarithm of the row's
    sum of exponentials of the shifted entries. -/
def rowsLogSoftmax (z : FVec Ideal S5000x64 .f32) : FVec Ideal S5000x64 .f32 :=
  subf (subf z (broadcastTo S5000x64 (shapeCast S5000x1
      (multiReduction .maximumf [1] S5000 z 0xFF800000#32 reduces_S5000x64_S5000 (.inl rfl) rfl)
      shapeCasts_S5000_S5000x1) broadcasts_S5000x1_S5000x64))
    (broadcastTo S5000x64 (log (shapeCast S5000x1
      (multiReduction .add [1] S5000 (exp (subf z (broadcastTo S5000x64 (shapeCast S5000x1
          (multiReduction .maximumf [1] S5000 z 0xFF800000#32 reduces_S5000x64_S5000 (.inl rfl) rfl)
          shapeCasts_S5000_S5000x1) broadcasts_S5000x1_S5000x64))) 0x00000000#32 reduces_S5000x64_S5000 (.inl rfl) rfl)
      shapeCasts_S5000_S5000x1)) broadcasts_S5000x1_S5000x64)

/-- The body's payload is that, of its pre-activation. -/
theorem pay_eq (v0 v3 : Vec Ideal S5000x128 .f32) (v6 v8 : Vec Ideal S128x64 .f32) (v11 : Vec Ideal S64 .f32) :
    k1_pay1 v0 v3 v6 v8 v11 = rowsLogSoftmax (pre v0 v3 v6 v8 v11) := rfl

/-- The shifted entry at `(p, q)`. -/
theorem shifted_apply (z : FVec Ideal S5000x64 .f32) (p : Fin 5000) (q : Fin 64) :
    subf z (broadcastTo S5000x64 (shapeCast S5000x1
      (multiReduction .maximumf [1] S5000 z 0xFF800000#32 reduces_S5000x64_S5000 (.inl rfl) rfl)
      shapeCasts_S5000_S5000x1) broadcasts_S5000x1_S5000x64) (ix2 p q)
      = z (ix2 p q) - Cert.Sage.rowMax (fun r j => z (ix2 r j)) p := by
  rw [subf_apply, keepdims_apply, rowmax_apply]

/-- At `(p, q)` that block is the shifted entry minus the logarithm of row `p`'s sum of exponentials of its shifted
    entries: the log-sum-exp is computed per row, kept as a column, and read back at every column of the row. -/
theorem rowsLogSoftmax_apply (z : FVec Ideal S5000x64 .f32) (p : Fin 5000) (q : Fin 64) :
    rowsLogSoftmax z (ix2 p q)
      = (z (ix2 p q) - Cert.Sage.rowMax (fun r j => z (ix2 r j)) p)
        - Ideal.log (∑ j : Fin 64, Ideal.exp (z (ix2 p j) - Cert.Sage.rowMax (fun r j => z (ix2 r j)) p)) := by
  unfold rowsLogSoftmax
  rw [subf_apply, shifted_apply]
  refine congrArg (fun t => (z (ix2 p q) - Cert.Sage.rowMax (fun r j => z (ix2 r j)) p) - t) ?_
  refine (broadcastTo_a1_ab_apply _ broadcasts_S5000x1_S5000x64 p q).trans ?_
  refine congrArg Ideal.log ?_
  refine (shapeCast_a_a1_apply _ shapeCasts_S5000_S5000x1 p (0 : Fin 1)).trans ?_
  refine (rowsum_apply _ p).trans ?_
  exact Finset.sum_congr rfl fun j _ => congrArg Ideal.exp (shifted_apply z p j)

/-! ## The body's payload is the layer at block size -/

/-- On the blocks the body loaded, its payload is the second layer of those blocks: the pre-activation is the layer's
    at every entry, so its rows' maxima, shifted exponentials and their sums are the layer's too. -/
theorem payload_eq (v0 v3 : Vec Ideal S5000x128 .f32) (v6 v8 : Vec Ideal S128x64 .f32) (v11 : Vec Ideal S64 .f32) :
    k1_pay1 v0 v3 v6 v8 v11 = Cert.Sage.layer2 v0 v3 v6 v8 v11 := by
  funext e
  obtain ⟨p, q, rfl⟩ : ∃ (p : Fin 5000) (q : Fin 64), e = ix2 p q := ⟨e 0, e 1, eq_ix2 e⟩
  have hpre : (fun (r : Fin 5000) (j : Fin 64) => pre v0 v3 v6 v8 v11 (ix2 r j)) = Cert.Sage.lin v0 v3 v6 v8 v11 :=
    funext fun r => funext fun j => pre_apply v0 v3 v6 v8 v11 r j
  rw [pay_eq, rowsLogSoftmax_apply, hpre]
  simp only [pre_apply]
  rfl

/-! ## The layer reads one row of the node arrays -/

/-- The layer at row `r` depends on `M` and `x` through their row `r` only: if row `r` of one pair of node arrays is
    row `r'` of another, the layer of the first at `(r, j)` is the layer of the second at `(r', j)`. -/
theorem layer2_rows {N N' D O : Nat} (M x : FVec Ideal ⟨2, ![N, D]⟩ .f32) (M' x' : FVec Ideal ⟨2, ![N', D]⟩ .f32)
    (Wl Wr : FVec Ideal ⟨2, ![D, O]⟩ .f32) (b : FVec Ideal ⟨1, ![O]⟩ .f32) (r : Fin N) (r' : Fin N')
    (hM : ∀ k : Fin D, M (ix2 r k) = M' (ix2 r' k)) (hx : ∀ k : Fin D, x (ix2 r k) = x' (ix2 r' k)) (j : Fin O) :
    Cert.Sage.layer2 M x Wl Wr b (ix2 r j) = Cert.Sage.layer2 M' x' Wl Wr b (ix2 r' j) := by
  have hlin : Cert.Sage.lin M x Wl Wr b r = Cert.Sage.lin M' x' Wl Wr b r' := by
    funext j'
    unfold Cert.Sage.lin
    simp only [hM, hx]
  have hmax : Cert.Sage.rowMax (Cert.Sage.lin M x Wl Wr b) r = Cert.Sage.rowMax (Cert.Sage.lin M' x' Wl Wr b) r' := by
    unfold Cert.Sage.rowMax
    rw [hlin]
  show (Cert.Sage.lin M x Wl Wr b r j - Cert.Sage.rowMax (Cert.Sage.lin M x Wl Wr b) r)
      - Ideal.log (∑ j' : Fin O, Ideal.exp (Cert.Sage.lin M x Wl Wr b r j' - Cert.Sage.rowMax (Cert.Sage.lin M x Wl Wr b) r))
    = (Cert.Sage.lin M' x' Wl Wr b r' j - Cert.Sage.rowMax (Cert.Sage.lin M' x' Wl Wr b) r')
      - Ideal.log (∑ j' : Fin O, Ideal.exp (Cert.Sage.lin M' x' Wl Wr b r' j' - Cert.Sage.rowMax (Cert.Sage.lin M' x' Wl Wr b) r'))
  rw [hlin, hmax]

/-! ## The blocks of the five input windows -/

variable (V : (c : Dev nD) → (b : Ref sig .tc) → Buf (Elt Ideal) ((c : Thread nD τ).loc b))

/-- The zero offsets of a whole-block access, on two axes and on one. -/
theorem hz2 : (![0, 0] : Fin 2 → Nat) = fun _ => 0 := funext fun a => by fin_cases a <;> rfl
theorem hz1 : (![0] : Fin 1 → Nat) = fun _ => 0 := funext fun a => by fin_cases a; rfl

/-- The five input blocks at grid point `t`, at their literal types: the neighbour means' and the node features' rows,
    the two weight matrices and the bias. -/
abbrev blkM (c : Dev nD) (t : Fin cfg1.N) : Vec Ideal S5000x128 .f32 := iblk1 V c 0 t
abbrev blkX (c : Dev nD) (t : Fin cfg1.N) : Vec Ideal S5000x128 .f32 := iblk1 V c 1 t
abbrev blkWl (c : Dev nD) (t : Fin cfg1.N) : Vec Ideal S128x64 .f32 := iblk1 V c 2 t
abbrev blkB (c : Dev nD) (t : Fin cfg1.N) : Vec Ideal S64 .f32 := iblk1 V c 3 t
abbrev blkWr (c : Dev nD) (t : Fin cfg1.N) : Vec Ideal S128x64 .f32 := iblk1 V c 4 t

/-- The arrays the region finds, at their literal types. -/
abbrev arrM (c : Dev nD) : Vec Ideal S100000x128 .f32 := V c main_v37
abbrev arrX (c : Dev nD) : Vec Ideal S100000x128 .f32 := V c main_v25
abbrev arrWl (c : Dev nD) : Vec Ideal S128x64 .f32 := V c main_arg5
abbrev arrB (c : Dev nD) : Vec Ideal S64 .f32 := V c main_arg6
abbrev arrWr (c : Dev nD) : Vec Ideal S128x64 .f32 := V c main_arg7

/-- The six windows' index maps, decided once over the 20 grid points: the two node windows and the output window are at
    block row `t`, block column 0; the weights and the bias are whole-array blocks at index 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the neighbour-means block at point `t` is row `5000·t + p` of the array. -/
theorem blkM_apply (c : Dev nD) (t : Fin cfg1.N) (p : Fin 5000) (k : Fin 128) (r : Fin 100000)
    (hr : r.val = 5000 * t.val + p.val) : blkM V c t (ix2 p k) = arrM V c (ix2 r k) := by
  obtain ⟨e0, e1, -⟩ := idx_facts t
  show V c main_v37 (((cfg1.win 0).blk t).view.emb (ix2 p k)) = V c main_v37 (ix2 r k)
  refine congrArg (V c main_v37) ?_
  funext a
  apply Fin.ext
  match a with
  | ⟨0, _⟩ => show win1_0.index t (0 : Fin 2) * 5000 + 1 * p.val = r.val; omega
  | ⟨1, _⟩ => show win1_0.index t (1 : Fin 2) * 128 + 1 * k.val = k.val; omega

/-- Row `p` of the node-features block at point `t` is row `5000·t + p` of the array. -/
theorem blkX_apply (c : Dev nD) (t : Fin cfg1.N) (p : Fin 5000) (k : Fin 128) (r : Fin 100000)
    (hr : r.val = 5000 * t.val + p.val) : blkX V c t (ix2 p k) = arrX V c (ix2 r k) := by
  obtain ⟨-, -, e0, e1, -⟩ := idx_facts t
  show V c main_v25 (((cfg1.win 1).blk t).view.emb (ix2 p k)) = V c main_v25 (ix2 r k)
  refine congrArg (V c main_v25) ?_
  funext a
  apply Fin.ext
  match a with
  | ⟨0, _⟩ => show win1_1.index t (0 : Fin 2) * 5000 + 1 * p.val = r.val; omega
  | ⟨1, _⟩ => show win1_1.index t (1 : Fin 2) * 128 + 1 * k.val = k.val; omega

/-- The left weights' block is the whole matrix at every point. -/
theorem blkWl_eq (c : Dev nD) (t : Fin cfg1.N) : blkWl V c t = arrWl V c := by
  obtain ⟨-, -, -, -, e0, e1, -⟩ := idx_facts t
  funext y
  show V c main_arg5 (((cfg1.win 2).blk t).view.emb y) = V c main_arg5 y
  refine congrArg (V c main_arg5) ?_
  funext a
  apply Fin.ext
  match a with
  | ⟨0, _⟩ => show win1_2.index t (0 : Fin 2) * 128 + 1 * (y 0).val = (y 0).val; omega
  | ⟨1, _⟩ => show win1_2.index t (1 : Fin 2) * 64 + 1 * (y 1).val = (y 1).val; omega

/-- The bias block is the whole vector at every point. -/
theorem blkB_eq (c : Dev nD) (t : Fin cfg1.N) : blkB V c t = arrB V c := by
  obtain ⟨-, -, -, -, -, -, e0, -⟩ := idx_facts t
  funext y
  show V c main_arg6 (((cfg1.win 3).blk t).view.emb y) = V c main_arg6 y
  refine congrArg (V c main_arg6) ?_
  funext a
  apply Fin.ext
  match a with
  | ⟨0, _⟩ => show win1_3.index t (0 : Fin 1) * 64 + 1 * (y 0).val = (y 0).val; omega

/-- The right weights' block is the whole matrix at every point. -/
theorem blkWr_eq (c : Dev nD) (t : Fin cfg1.N) : blkWr V c t = arrWr V c := by
  obtain ⟨-, -, -, -, -, -, -, e0, e1, -⟩ := idx_facts t
  funext y
  show V c main_arg7 (((cfg1.win 4).blk t).view.emb y) = V c main_arg7 y
  refine congrArg (V c main_arg7) ?_
  funext a
  apply Fin.ext
  match a with
  | ⟨0, _⟩ => show win1_4.index t (0 : Fin 2) * 128 + 1 * (y 0).val = (y 0).val; omega
  | ⟨1, _⟩ => show win1_4.index t (1 : Fin 2) * 64 + 1 * (y 1).val = (y 1).val; omega

/-! ## What a point writes back, and the array after the run -/

/-- The second layer of the arrays the region finds, index by index over the 100000 nodes. -/
abbrev layerOut (c : Dev nD) : Vec Ideal S100000x64 .f32 :=
  Cert.Sage.layer2 (arrM V c) (arrX V c) (arrWl V c) (arrWr V c) (arrB V c)

/-- The layer of the blocks at point `t`, at `(p, q)`, is the layer of the whole arrays at node `5000·t + p`:
    the weights and the bias are the same, and the layer reads only that node's rows. -/
theorem block_layer (c : Dev nD) (t : Fin cfg1.N) (p : Fin 5000) (q : Fin 64) (r : Fin 100000)
    (hr : r.val = 5000 * t.val + p.val) :
    Cert.Sage.layer2 (blkM V c t) (blkX V c t) (blkWl V c t) (blkWr V c t) (blkB V c t) (ix2 p q)
      = layerOut V c (ix2 r q) := by
  rw [blkWl_eq, blkWr_eq, blkB_eq]
  exact layer2_rows (blkM V c t) (blkX V c t) (arrM V c) (arrX V c) (arrWl V c) (arrWr V c) (arrB V c) p r
    (fun k => blkM_apply V c t p k r hr) (fun k => blkX_apply V c t p k r hr) q

/-- WHAT POINT `t` WRITES BACK is block `t` of the layer of the whole arrays. -/
theorem flushed_eq (c : Dev nD) (t : Fin cfg1.N) :
    (dat1 V c).flushed 5 t = ((cfg1.win 5).blk t).view.read (Elt Ideal) (layerOut V c) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x64) hz2,
    View.ld_unit_zero (S := S64) hz1]
  rw [payload_eq (iblk1 V c 0 t) (iblk1 V c 1 t) (iblk1 V c 2 t) (iblk1 V c 4 t) (iblk1 V c 3 t)]
  obtain ⟨-, -, -, -, -, -, -, -, -, e0, e1⟩ := idx_facts t
  funext j
  have ht : t.val < 20 := lt_of_lt_of_eq t.isLt N_1
  have hj0 : (j 0).val < 5000 := (j 0).isLt
  have hj1 : (j 1).val < 64 := (j 1).isLt
  refine Eq.trans ?_ ((block_layer V c t ⟨(j 0).val, hj0⟩ ⟨(j 1).val, hj1⟩
    ⟨5000 * t.val + (j 0).val, by omega⟩ rfl).trans ?_)
  · rfl
  · show layerOut V c _ = layerOut V c (((cfg1.win 5).blk t).view.emb j)
    refine congrArg (layerOut V c) ?_
    funext a
    apply Fin.ext
    match a with
    | ⟨0, _⟩ => show 5000 * t.val + (j 0).val = win1_5.index t (0 : Fin 2) * 5000 + 1 * (j 0).val; omega
    | ⟨1, _⟩ => show (j 1).val = win1_5.index t (1 : Fin 2) * 64 + 1 * (j 1).val; omega

/-- An index of the output array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v38).slice (win1_5.rect t)).set ↔ _
  rw [View.set_slice_whole, Rect.mem_set_unit]
  exact Iff.rfl

/-- Every node row lies in the block of the point `row / 5000`, and every column in that block's one column range. -/
theorem cover (i : S100000x64.Idx) :
    ∃ t : Fin cfg1.N, (cfg1.win 5).flush t = true ∧ i ∈ ((cfg1.win 5).blk t).view.set := by
  have hi0 : (i 0).val < 100000 := idx2_lt0 i
  have hi1 : (i 1).val < 64 := idx2_lt1 i
  have hN : cfg1.N = 20 := N_1
  let t : Fin cfg1.N := ⟨(i 0).val / 5000, by rw [hN]; omega⟩
  obtain ⟨-, -, -, -, -, -, -, -, -, e0, e1⟩ := idx_facts t
  have ht : t.val = (i 0).val / 5000 := rfl
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- THE ARRAY after the region's run: the second layer of the arrays the region found, at every node and column. -/
theorem arr_eq (c : Dev nD) :
    (dat1 (F := Ideal) V c).arrAt 5 cfg1.N
      = Cert.Sage.layer2 (V c main_v37) (V c main_v25) (V c main_arg5) (V c main_arg7) (V c main_arg6) :=
  (dat1 V c).arrAt_eq_of_cover 5 (layerOut V c) (fun t _ => flushed_eq V c t) cover

end Cert.KernelIdeal.Region1

end
-- ==== Proof.KernelValue.lean ====
/-
  What the kernel program computes: its result buffer as one function of the arguments.

  The run's last boundary has the second launch's output array at what its write-backs leave, which is the second
  layer of the arrays that launch found; those are what the second host stretch left — the aggregated hidden features
  scaled by the reciprocal clamped degrees, the hidden features themselves, and the second layer's weights as
  launched —, the hidden features being the first launch's output, the first layer of what the first host stretch
  left. Scaling by the reciprocals is dividing by the clamped degrees, so the result is

      layer2 (meanDiv (agg h) dmax) h W2_l W2_r b2,   h = layer1 (meanDiv (agg x) dmax) x W1_l W1_r b1,

  of the arguments as launched.
-/
import proofs.«154245_j29729763623350_1_alg».proof.Proof.KernelRun
import proofs.«154245_j29729763623350_1_alg».proof.Proof.KernelMean
import proofs.«154245_j29729763623350_1_alg».proof.Proof.Region0Value
import proofs.«154245_j29729763623350_1_alg».proof.Proof.Region1Value

noncomputable section

namespace Cert.KernelIdeal.Net

open Cert.KernelIdeal Cert.KernelIdeal.Gen Cert.KernelIdeal.HostFn
open Idealize.ShloMosaic Idealize.ShloMosaic.TcCoe Idealize.SL.Sem Idealize.ShloMosaic.StableHlo

/-- The hidden features: the first layer of the mean aggregation of the input rows. -/
def hidden (x : FVec Ideal S100000x128 .f32) (e : IVec S2x1600000 32) (Wl : FVec Ideal S128x128 .f32) (b : FVec Ideal S128 .f32)
    (Wr : FVec Ideal S128x128 .f32) : FVec Ideal S100000x128 .f32 :=
  Cert.Sage.layer1 (Cert.Sage.meanDiv (aggOf x (edgeRow0 e) (edgeRow1 e)) (dmaxOf (edgeRow1 e))) x Wl Wr b

/-- The network's output: the second layer of the mean aggregation of the hidden features. -/
def net (x : FVec Ideal S100000x128 .f32) (e : IVec S2x1600000 32) (W1l : FVec Ideal S128x128 .f32) (b1 : FVec Ideal S128 .f32)
    (W1r : FVec Ideal S128x128 .f32) (W2l : FVec Ideal S128x64 .f32) (b2 : FVec Ideal S64 .f32) (W2r : FVec Ideal S128x64 .f32) :
    FVec Ideal S100000x64 .f32 :=
  Cert.Sage.layer2 (Cert.Sage.meanDiv (aggOf (hidden x e W1l b1 W1r) (edgeRow0 e) (edgeRow1 e)) (dmaxOf (edgeRow1 e)))
    (hidden x e W1l b1 W1r) W2l W2r b2

variable (m : (ℓ : Loc nD τ sig) → Buf (Elt Ideal) ℓ) (ρ : Dev nD → PrngReg)

/-- What the first launch finds in its mean operand: the row-wise quotient of the aggregated input rows by the
    clamped degrees. -/
theorem entry0_mean (c : Dev nD) :
    V1 m ρ c main_v24
      = Cert.Sage.meanDiv (aggOf (W0 m ρ c (Proc.devRef .tc main_arg0)) (edgeRow0 (W0 m ρ c (Proc.devRef .tc main_arg1))) (edgeRow1 (W0 m ρ c (Proc.devRef .tc main_arg1))))
          (dmaxOf (edgeRow1 (W0 m ρ c (Proc.devRef .tc main_arg1)))) :=
  (host0_mean (W0 m ρ c)).trans (scaleRows_recipCol _ _ (dmaxOf_ne_zero _))

/-- The first launch's output: the hidden features of the arguments as launched. -/
theorem hidden_eq (c : Dev nD) :
    W2 m ρ c (Proc.devRef .tc main_v25)
      = hidden (W0 m ρ c (Proc.devRef .tc main_arg0)) (W0 m ρ c (Proc.devRef .tc main_arg1)) (W0 m ρ c (Proc.devRef .tc main_arg2))
          (W0 m ρ c (Proc.devRef .tc main_arg3)) (W0 m ρ c (Proc.devRef .tc main_arg4)) := by
  refine (W2_arr m ρ c 5).trans ((Cert.KernelIdeal.Region0.arr_eq (V1 m ρ) c).trans ?_)
  rw [entry0_mean m ρ c]
  show Cert.Sage.layer1 _ (after hostOps0 (W0 m ρ c) (Proc.devRef .tc main_arg0)) (after hostOps0 (W0 m ρ c) (Proc.devRef .tc main_arg2))
      (after hostOps0 (W0 m ρ c) (Proc.devRef .tc main_arg4)) (after hostOps0 (W0 m ρ c) (Proc.devRef .tc main_arg3)) = _
  rw [host0_arg0, host0_arg2, host0_arg3, host0_arg4]
  rfl

/-- The two rows of the edge list and the reciprocal column, as the first host stretch leaves them. -/
theorem entry0_src (c : Dev nD) : W1 m ρ c (Proc.devRef .tc main_v1) = edgeRow0 (W0 m ρ c (Proc.devRef .tc main_arg1)) := host0_src (W0 m ρ c)
theorem entry0_dst (c : Dev nD) : W1 m ρ c (Proc.devRef .tc main_v3) = edgeRow1 (W0 m ρ c (Proc.devRef .tc main_arg1)) := host0_dst (W0 m ρ c)
theorem entry0_recip (c : Dev nD) :
    W1 m ρ c (Proc.devRef .tc main_v12) = recipCol (F := Ideal) (dmaxOf (edgeRow1 (W0 m ρ c (Proc.devRef .tc main_arg1)))) := host0_recip (W0 m ρ c)

/-- What the second launch finds in its mean operand: the row-wise quotient of the aggregated hidden features by the
    clamped degrees. -/
theorem entry1_mean (c : Dev nD) :
    V3 m ρ c main_v37
      = Cert.Sage.meanDiv (aggOf (W2 m ρ c (Proc.devRef .tc main_v25)) (edgeRow0 (W0 m ρ c (Proc.devRef .tc main_arg1))) (edgeRow1 (W0 m ρ c (Proc.devRef .tc main_arg1))))
          (dmaxOf (edgeRow1 (W0 m ρ c (Proc.devRef .tc main_arg1)))) := by
  refine (host1_mean (W2 m ρ c)).trans ?_
  rw [W2_of_ne m ρ c main_v1 (by decide), W2_of_ne m ρ c main_v3 (by decide), W2_of_ne m ρ c main_v12 (by decide),
    entry0_src m ρ c, entry0_dst m ρ c, entry0_recip m ρ c]
  exact scaleRows_recipCol _ _ (dmaxOf_ne_zero _)

/-- A weight of the second layer reaches the second launch as launched. -/
theorem entry1_arg5 (c : Dev nD) : V3 m ρ c main_arg5 = W0 m ρ c (Proc.devRef .tc main_arg5) :=
  (host1_arg5 (W2 m ρ c)).trans ((W2_of_ne m ρ c main_arg5 (by decide)).trans (host0_arg5 (W0 m ρ c)))
theorem entry1_arg6 (c : Dev nD) : V3 m ρ c main_arg6 = W0 m ρ c (Proc.devRef .tc main_arg6) :=
  (host1_arg6 (W2 m ρ c)).trans ((W2_of_ne m ρ c main_arg6 (by decide)).trans (host0_arg6 (W0 m ρ c)))
theorem entry1_arg7 (c : Dev nD) : V3 m ρ c main_arg7 = W0 m ρ c (Proc.devRef .tc main_arg7) :=
  (host1_arg7 (W2 m ρ c)).trans ((W2_of_ne m ρ c main_arg7 (by decide)).trans (host0_arg7 (W0 m ρ c)))

/-- The result buffer at the run's last boundary: the network's output of the arguments as launched. -/
theorem out_eq (c : Dev nD) :
    W4 m ρ c (Proc.devRef .tc main_v38)
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  refine (W4_arr m ρ c 5).trans ((Cert.KernelIdeal.Region1.arr_eq (V3 m ρ) c).trans ?_)
  rw [entry1_mean m ρ c, entry1_arg5 m ρ c, entry1_arg6 m ρ c, entry1_arg7 m ρ c]
  show Cert.Sage.layer2 _ (after hostOps1 (W2 m ρ c) (Proc.devRef .tc main_v25)) _ _ _ = _
  rw [host1_hidden, hidden_eq m ρ c]
  rfl

end Cert.KernelIdeal.Net

end
-- ==== Proof.RefHost.lean ====
/-
  The reference program's host operations, grouped into the functions the network is made of.

  The reference computes, for node features `y` and an edge list `e` (row 0 the source node of each edge, row 1 its
  destination): the sum over each node's incoming edges of the source rows (`agg`: a gather of the source rows, negative
  source indices wrapped once by the number of nodes, then a scatter-add at the destinations), the in-degree clamped
  below at one (`dmax`: a scatter-add of ones, then a maximum with one), the mean (`mean`: the sum divided by the clamped
  degree, broadcast along the feature axis), the layer's pre-activation (`pre1`, `pre2`: neighbour product, bias, root
  product, added in that order), the first layer's clamp at zero (`lay1`) and the second layer's log-softmax along the
  feature axis (`lsm`: subtract the row maximum, then the logarithm of the row's sum of exponentials).
  Each is the printed operations' own term, so that the program's run reads as their composition.
-/
import proofs.«154245_j29729763623350_1_alg».proof.Proof.Gen.ReferenceIdeal

noncomputable section

namespace Cert.ReferenceIdeal.HostFn

open Cert.ReferenceIdeal Cert.ReferenceIdeal.Gen Idealize.ShloMosaic

variable {F : FTy → Type} [FloatOps F]

/-- Row `r` of the edge list as a vector of edge entries. -/
def edgeRow0 (e : IVec S2x1600000 32) : IVec S1600000 32 :=
  shapeCast S1600000 (extractStridedSlice S1x1600000 ![0, 0] e slices_S2x1600000_S1x1600000_0_0) shapeCasts_S1x1600000_S1600000
@[inherit_doc edgeRow0]
def edgeRow1 (e : IVec S2x1600000 32) : IVec S1600000 32 :=
  shapeCast S1600000 (extractStridedSlice S1x1600000 ![1, 0] e slices_S2x1600000_S1x1600000_1_0) shapeCasts_S1x1600000_S1600000

/-- The gather's index column: each edge's source node, a negative index wrapped once by the number of nodes. -/
def srcIdx (e : IVec S2x1600000 32) : IVec S1600000x1 32 :=
  broadcastInDim S1600000x1 ![0] bcast_S1600000_S1600000x1_0
    (select (cmpi .slt (edgeRow0 e) (broadcastInDim S1600000 ![] bcast_S_S1600000 (constantI S_ 32 0#32)))
      (addi (edgeRow0 e) (broadcastInDim S1600000 ![] bcast_S_S1600000 (constantI S_ 32 100000#32)))
      (edgeRow0 e))

/-- The scatter's index column: each edge's destination node. -/
def dstIdx (e : IVec S2x1600000 32) : IVec S1600000x1 32 :=
  broadcastInDim S1600000x1 ![0] bcast_S1600000_S1600000x1_0 (edgeRow1 e)

/-- The sum, at each node, of the rows of `y` at the sources of the node's incoming edges. -/
def agg (y : FVec F S100000x128 .f32) (e : IVec S2x1600000 32) : FVec F S100000x128 .f32 :=
  Host.scatterAdd scatter_S100000x128_S1600000x1_S1600000x128_1_0_0_1
    (broadcastInDim S100000x128 ![] bcast_S_S100000x128 (constant S_ .f32 0x00000000#32)) (dstIdx e)
    (Host.gather gather_S100000x128_S1600000x1_S1600000x128_1_0_n_n_0_1_1128 y (srcIdx e))

/-- The number of incoming edges of each node, clamped below at one. -/
def dmax (e : IVec S2x1600000 32) : FVec F S100000 .f32 :=
  maximumf
    (Host.scatterAdd scatter_S100000_S1600000x1_S1600000_n_0_0_1
      (broadcastInDim S100000 ![] bcast_S_S100000 (constant S_ .f32 0x00000000#32)) (dstIdx e)
      (broadcastInDim S1600000 ![] bcast_S_S1600000 (constant S_ .f32 0x3F800000#32)))
    (broadcastInDim S100000 ![] bcast_S_S100000 (constant S_ .f32 0x3F800000#32))

/-- Row-wise quotient of an array by a column of divisors, the column broadcast along the feature axis. -/
def mean (A : FVec F S100000x128 .f32) (d : FVec F S100000 .f32) : FVec F S100000x128 .f32 :=
  Host.divf A (broadcastInDim S100000x128 ![0, 1] bcast_S100000x1_S100000x128_0_1
    (broadcastInDim S100000x1 ![0] bcast_S100000_S100000x1_0 d))

/-- The first layer's pre-activation: neighbour product, plus the bias along the rows, plus the root product. -/
def pre1 (M x : FVec F S100000x128 .f32) (Wl : FVec F S128x128 .f32) (b : FVec F S128 .f32) (Wr : FVec F S128x128 .f32) :
    FVec F S100000x128 .f32 :=
  addf (addf (Host.dotGeneral dot_S100000x128_S128x128_S100000x128_1_0_0_1_n_n none M Wl)
      (broadcastInDim S100000x128 ![0, 1] bcast_S1x128_S100000x128_0_1 (broadcastInDim S1x128 ![1] bcast_S128_S1x128_1 b)))
    (Host.dotGeneral dot_S100000x128_S128x128_S100000x128_1_0_0_1_n_n none x Wr)

/-- The first layer: the pre-activation clamped below at zero. -/
def lay1 (M x : FVec F S100000x128 .f32) (Wl : FVec F S128x128 .f32) (b : FVec F S128 .f32) (Wr : FVec F S128x128 .f32) :
    FVec F S100000x128 .f32 :=
  maximumf (pre1 M x Wl b Wr) (broadcastInDim S100000x128 ![] bcast_S_S100000x128 (constant S_ .f32 0x00000000#32))

/-- The second layer's pre-activation. -/
def pre2 (M x : FVec F S100000x128 .f32) (Wl : FVec F S128x64 .f32) (b : FVec F S64 .f32) (Wr : FVec F S128x64 .f32) :
    FVec F S100000x64 .f32 :=
  addf (addf (Host.dotGeneral dot_S100000x128_S128x64_S100000x64_1_0_0_1_n_n none M Wl)
      (broadcastInDim S100000x64 ![0, 1] bcast_S1x64_S100000x64_0_1 (broadcastInDim S1x64 ![1] bcast_S64_S1x64_1 b)))
    (Host.dotGeneral dot_S100000x128_S128x64_S100000x64_1_0_0_1_n_n none x Wr)

/-- Each row's maximum (from `-∞`, and once more against `-∞`). -/
def rowMaxH (z : FVec F S100000x64 .f32) : FVec F S100000 .f32 :=
  maximumf (broadcastInDim S100000 ![] bcast_S_S100000 (constant S_ .f32 0xFF800000#32))
    (Host.reduce FloatOps.maximumf z (constant S_ .f32 0xFF800000#32) reducesTo_S100000x64_S100000_d1 h_S_)

/-- The array shifted by its rows' maxima. -/
def shiftH (z : FVec F S100000x64 .f32) : FVec F S100000x64 .f32 :=
  subf z (broadcastInDim S100000x64 ![0, 1] bcast_S100000x1_S100000x64_0_1
    (broadcastInDim S100000x1 ![0] bcast_S100000_S100000x1_0 (rowMaxH z)))

/-- The log-softmax along the feature axis: the shifted array minus the logarithm of each row's sum of exponentials. -/
def lsm (z : FVec F S100000x64 .f32) : FVec F S100000x64 .f32 :=
  subf (shiftH z) (broadcastInDim S100000x64 ![0, 1] bcast_S100000x1_S100000x64_0_1
    (Host.log (broadcastInDim S100000x1 ![0] bcast_S100000_S100000x1_0
      (Host.reduceAdd (Host.exp (shiftH z)) (constant S_ .f32 0x00000000#32) reducesTo_S100000x64_S100000_d1 h_S_))))

end Cert.ReferenceIdeal.HostFn

end
-- ==== Proof.RefGraph.lean ====
/-
  The aggregation and the clamped degree as functions of the edge list's two rows.

  The program slices the edge list into its source row and its destination row once and reads those rows again in
  both layers, so the run meets the aggregation with the rows already taken: `aggOf y s d` gathers the rows of `y` at the
  sources `s` (a negative index wrapped once by the number of nodes) and adds them up at the destinations `d`; `dmaxOf d`
  counts the edges arriving at each node and clamps the count below at one. At the rows of an edge list `e` they are
  `agg y e` and `dmax e`.
-/
import proofs.«154245_j29729763623350_1_alg».proof.Proof.RefHost

noncomputable section

namespace Cert.ReferenceIdeal.HostFn

open Cert.ReferenceIdeal Cert.ReferenceIdeal.Gen Idealize.ShloMosaic

variable {F : FTy → Type} [FloatOps F]

/-- The gather's index column from the source row. -/
def srcIdxOf (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The sum, at each node, of the rows of `y` at the sources `s` of the edges whose destination `d` is the node. -/
def aggOf (y : FVec F S100000x128 .f32) (s d : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 y (srcIdxOf s))

/-- The number of edges whose destination `d` is each node, clamped below at one. -/
def dmaxOf (d : IVec S1600000 32) : FVec F S100000 .f32 :=
  maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 d)
      (broadcastInDim S1600000 ![] bcast_S_S1600000 (constant S_ .f32 0x3F800000#32)))
    (broadcastInDim S100000 ![] bcast_S_S100000 (constant S_ .f32 0x3F800000#32))

theorem agg_eq (y : FVec F S100000x128 .f32) (e : IVec S2x1600000 32) : agg y e = aggOf y (edgeRow0 e) (edgeRow1 e) := rfl

theorem dmax_eq (e : IVec S2x1600000 32) : dmax (F := F) e = dmaxOf (edgeRow1 e) := rfl

end Cert.ReferenceIdeal.HostFn

end
-- ==== Proof.RefValue.lean ====
/-
  The reference program's run, read stretch by stretch.

  The program is a straight line of 84 host operations, so its run ends with every buffer at the fold of the
  operations' results over the launch contents. The fold is read in four consecutive stretches, each from ARBITRARY
  contents `W`, so that no stretch carries the terms of the ones before it:
    A  the slices of the edge list, the aggregation of the input rows, the clamped degree, the mean and the first
       layer's pre-activation;
    B  the clamp at zero (the hidden features);
    C  the aggregation of the hidden features, the mean and the second layer's pre-activation;
    D  the log-softmax.
  A stretch's result is its operations' own term, named by the functions of the host module; the other buffers a later
  stretch reads (the two rows of the edge list, the weights, the hidden features) pass through unchanged. Composed, the
  result buffer holds the second layer of the mean aggregation of the first layer's output.
-/
import proofs.«154245_j29729763623350_1_alg».proof.Proof.RefRun
import proofs.«154245_j29729763623350_1_alg».proof.Proof.RefGraph

noncomputable section

namespace Cert.ReferenceIdeal.RunValue

open Cert.ReferenceIdeal Cert.ReferenceIdeal.Gen Cert.ReferenceIdeal.ValueP Cert.ReferenceIdeal.HostFn
open Idealize.ShloMosaic Idealize.ShloMosaic.TcCoe Idealize.SL.Sem Idealize.ShloMosaic.StableHlo

variable {F : FTy → Type} [FloatOps F]

/-- Operations run one list after another: the contents after the first list are what the second starts from. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A value carried to a typed reference's own buffer type and back is the value. -/
theorem ofBuf_toBuf {T : BufTy} (x : TRef sig T) (v : T.Contents (Elt F)) : x.ofBuf (x.toBuf v) = v := by
  obtain ⟨ref, ty_eq, _, _⟩ := x
  subst ty_eq
  rfl

/-! ## The four stretches -/

/-- Stretch A: the first 35 operations, up to the first layer's pre-activation. -/
abbrev opsA : List (HloOp τ sig (Elt F)) := (ops (F := F)).take 35
abbrev restA : List (HloOp τ sig (Elt F)) := (ops (F := F)).drop 35
/-- Stretch B: the clamp at zero, 3 operations. -/
abbrev opsB : List (HloOp τ sig (Elt F)) := (restA (F := F)).take 3
abbrev restB : List (HloOp τ sig (Elt F)) := (restA (F := F)).drop 3
/-- Stretch C: 31 operations, up to the second layer's pre-activation. -/
abbrev opsC : List (HloOp τ sig (Elt F)) := (restB (F := F)).take 31
/-- Stretch D: the log-softmax, 15 operations. -/
abbrev opsD : List (HloOp τ sig (Elt F)) := (restB (F := F)).drop 31

theorem ops_split : (ops (F := F)) = opsA ++ (opsB ++ (opsC ++ opsD)) :=
  (List.take_append_drop 35 ops).symm.trans (congrArg (opsA ++ ·)
    ((List.take_append_drop 3 restA).symm.trans (congrArg (opsB ++ ·) (List.take_append_drop 31 restB).symm)))

/-- Opens a stretch into its literal list of operations and reads the fold at one buffer. -/
local macro "read_stretch" : tactic =>
  `(tactic| (simp only [opsA, restA, opsB, restB, opsC, opsD, ops, List.take_succ_cons, List.take_zero, List.drop_succ_cons, List.drop_zero]
             after_results_simp))

section Stretches

variable (W : Valuation τ sig (Elt F))

/-! ### A -/

set_option maxRecDepth 8192 in
/-- After stretch A the pre-activation buffer holds the first layer's pre-activation of the mean aggregation of the
    input rows. -/
theorem A_pre :
    after (opsA (F := F)) W (Proc.devRef .tc main_v28)
      = pre1 (mean (aggOf (W (Proc.devRef .tc main_arg0)) (edgeRow0 (W (Proc.devRef .tc main_arg1))) (edgeRow1 (W (Proc.devRef .tc main_arg1))))
          (dmaxOf (edgeRow1 (W (Proc.devRef .tc main_arg1))))) (W (Proc.devRef .tc main_arg0)) (W (Proc.devRef .tc main_arg2))
          (W (Proc.devRef .tc main_arg3)) (W (Proc.devRef .tc main_arg4)) := by
  read_stretch
  rfl

set_option maxRecDepth 8192 in
theorem A_src : after (opsA (F := F)) W (Proc.devRef .tc main_v1) = edgeRow0 (W (Proc.devRef .tc main_arg1)) := by
  read_stretch
  rfl

set_option maxRecDepth 8192 in
theorem A_dst : after (opsA (F := F)) W (Proc.devRef .tc main_v3) = edgeRow1 (W (Proc.devRef .tc main_arg1)) := by
  read_stretch
  rfl

set_option maxRecDepth 8192 in
theorem A_arg5 : after (opsA (F := F)) W (Proc.devRef .tc main_arg5) = W (Proc.devRef .tc main_arg5) := by read_stretch
set_option maxRecDepth 8192 in
theorem A_arg6 : after (opsA (F := F)) W (Proc.devRef .tc main_arg6) = W (Proc.devRef .tc main_arg6) := by read_stretch
set_option maxRecDepth 8192 in
theorem A_arg7 : after (opsA (F := F)) W (Proc.devRef .tc main_arg7) = W (Proc.devRef .tc main_arg7) := by read_stretch

/-! ### B -/

/-- After stretch B the hidden-feature buffer holds the pre-activation clamped below at zero. -/
theorem B_hidden :
    after (opsB (F := F)) W (Proc.devRef .tc main_v29)
      = maximumf (W (Proc.devRef .tc main_v28)) (broadcastInDim S100000x128 ![] bcast_S_S100000x128 (constant S_ .f32 0x00000000#32)) := by
  read_stretch
  rfl

theorem B_src : after (opsB (F := F)) W (Proc.devRef .tc main_v1) = W (Proc.devRef .tc main_v1) := by read_stretch
theorem B_dst : after (opsB (F := F)) W (Proc.devRef .tc main_v3) = W (Proc.devRef .tc main_v3) := by read_stretch
theorem B_arg5 : after (opsB (F := F)) W (Proc.devRef .tc main_arg5) = W (Proc.devRef .tc main_arg5) := by read_stretch
theorem B_arg6 : after (opsB (F := F)) W (Proc.devRef .tc main_arg6) = W (Proc.devRef .tc main_arg6) := by read_stretch
theorem B_arg7 : after (opsB (F := F)) W (Proc.devRef .tc main_arg7) = W (Proc.devRef .tc main_arg7) := by read_stretch

/-! ### C -/

set_option maxRecDepth 8192 in
/-- After stretch C the second pre-activation buffer holds the second layer's pre-activation of the mean aggregation
    of the hidden features. -/
theorem C_pre :
    after (opsC (F := F)) W (Proc.devRef .tc main_v54)
      = pre2 (mean (aggOf (W (Proc.devRef .tc main_v29)) (W (Proc.devRef .tc main_v1)) (W (Proc.devRef .tc main_v3))) (dmaxOf (W (Proc.devRef .tc main_v3))))
          (W (Proc.devRef .tc main_v29)) (W (Proc.devRef .tc main_arg5)) (W (Proc.devRef .tc main_arg6)) (W (Proc.devRef .tc main_arg7)) := by
  read_stretch
  rfl

/-! ### D -/

set_option maxRecDepth 8192 in
/-- After stretch D the result buffer holds the log-softmax of the second pre-activation. -/
theorem D_out : after (opsD (F := F)) W (Proc.devRef .tc main_v55) = lsm (W (Proc.devRef .tc main_v54)) := by
  read_stretch
  simp only [ofBuf_toBuf]
  rfl

end Stretches

/-! ## The whole run -/

/-- From any contents `V`, the result buffer after all 84 operations: the log-softmax of the second layer's
    pre-activation of the mean aggregation of the hidden features, themselves the first layer of the mean aggregation
    of the input rows. -/
theorem out_eq (V : Valuation τ sig (Elt F)) :
    after (ops (F := F)) V (Proc.devRef .tc main_v55)
      = lsm (pre2 (mean (agg (lay1 (mean (agg (V (Proc.devRef .tc main_arg0)) (V (Proc.devRef .tc main_arg1))) (dmax (V (Proc.devRef .tc main_arg1))))
                (V (Proc.devRef .tc main_arg0)) (V (Proc.devRef .tc main_arg2)) (V (Proc.devRef .tc main_arg3)) (V (Proc.devRef .tc main_arg4))) (V (Proc.devRef .tc main_arg1)))
              (dmax (V (Proc.devRef .tc main_arg1))))
          (lay1 (mean (agg (V (Proc.devRef .tc main_arg0)) (V (Proc.devRef .tc main_arg1))) (dmax (V (Proc.devRef .tc main_arg1))))
            (V (Proc.devRef .tc main_arg0)) (V (Proc.devRef .tc main_arg2)) (V (Proc.devRef .tc main_arg3)) (V (Proc.devRef .tc main_arg4)))
          (V (Proc.devRef .tc main_arg5)) (V (Proc.devRef .tc main_arg6)) (V (Proc.devRef .tc main_arg7))) := by
  rw [ops_split, after_append, after_append, after_append, D_out, C_pre, B_hidden, B_src, B_dst, B_arg5, B_arg6, B_arg7,
    A_pre, A_src, A_dst, A_arg5, A_arg6, A_arg7]
  rfl

end Cert.ReferenceIdeal.RunValue

end
-- ==== Proof.RefHostValue.lean ====
/-
  The reference's host functions read at an index, at the ideal values.

  Each host function of the reference program is a composition of pointwise operations (sum, difference, maximum,
  quotient, exponential, logarithm), of layout operations that only re-index (a scalar splat; a bias [O] made a row
  [1, O] and repeated along the nodes to [N, O]; a column [N] made [N, 1] and repeated along the features to [N, O]), of
  matrix products, and of two reductions along the feature axis (a maximum from -∞ and a sum from 0). Read at node `r`
  and column `j`, a pointwise operation is the extended reals' operation on the operands' entries at (r, j); a repeated
  bias is the bias at `j`; a repeated column is the column's entry at `r`; a splat is its constant; a product is the sum
  over the contracted position `q` of A (r, q) · B (q, j); the row maximum is the fold of `max` from -∞ (= ⊥) over the
  row's entries, and the second maximum against -∞ changes nothing because `max ⊥ x = x`; the row sum is 0 plus the sum
  of the row's entries. Chaining these readings, the mean is the row-wise quotient, the first layer is the clamped
  pre-activation and the second layer is the log-softmax of the pre-activation, exactly as the specification writes them.
-/
import proofs.«154245_j29729763623350_1_alg».proof.Proof.RefHost
import proofs.«154245_j29729763623350_1_alg».proof.Proof.SageSpec
import proofs.«154245_j29729763623350_1_alg».proof.Proof.LibDotPlain
import Idealize.ShloMosaic.Lib.Pipeline.Value
import Idealize.ShloMosaic.Lib.ValueIdx
import Idealize.ShloMosaic.PureOps.Ideal.Laws

noncomputable section

open scoped BigOperators

namespace Cert.ReferenceIdeal.HostValue

open Cert.ReferenceIdeal Cert.ReferenceIdeal.Gen Cert.ReferenceIdeal.HostFn Idealize.ShloMosaic Idealize.ShloMosaic.ValueIdx

/-! ## Layout operations at an entry -/

section Layout
variable {α : Type}

/-- A scalar repeated to any shape reads the scalar's value everywhere. -/
theorem splat_apply {t : Shape} (h : (⟨0, ![]⟩ : Shape).BroadcastsInDim t ![]) (x : (⟨0, ![]⟩ : Shape).Idx → α) (i : t.Idx) :
    broadcastInDim t ![] h x i = x ix0 :=
  broadcastInDim_apply _ h x i ix0 (fun a => a.elim0)

/-- A vector [N] made a column [N, 1]: the entry at (r, c) is the vector's entry at r. -/
theorem unitCol_apply {N : Nat} (h : (⟨1, ![N]⟩ : Shape).BroadcastsInDim ⟨2, ![N, 1]⟩ ![0])
    (d : (⟨1, ![N]⟩ : Shape).Idx → α) (r : Fin N) (c : Fin 1) :
    broadcastInDim ⟨2, ![N, 1]⟩ ![0] h d (ix2 r c) = d (ix1 r) :=
  broadcastInDim_apply _ h d (ix2 r c) (ix1 r) (fun a => match a with
    | ⟨0, _⟩ => by
      show r.val = if N = 1 then 0 else r.val
      split
      · have := r.isLt; omega
      · rfl)

/-- A column [N, 1] repeated along the second axis to [N, O]: the entry at (r, j) is the column's entry at (r, 0). -/
theorem colBcast_apply {N O : Nat} (h : (⟨2, ![N, 1]⟩ : Shape).BroadcastsInDim ⟨2, ![N, O]⟩ ![0, 1])
    (v : (⟨2, ![N, 1]⟩ : Shape).Idx → α) (r : Fin N) (j : Fin O) :
    broadcastInDim ⟨2, ![N, O]⟩ ![0, 1] h v (ix2 r j) = v (ix2 r 0) :=
  broadcastInDim_apply _ h v (ix2 r j) (ix2 r 0) (fun a => match a with
    | ⟨0, _⟩ => by
      show r.val = if N = 1 then 0 else r.val
      split
      · have := r.isLt; omega
      · rfl
    | ⟨1, _⟩ => by
      show 0 = if (1 : Nat) = 1 then 0 else j.val
      rw [if_pos rfl])

/-- A vector [O] made a row [1, O]: the entry at (c, j) is the vector's entry at j. -/
theorem unitRow_apply {O : Nat} (h : (⟨1, ![O]⟩ : Shape).BroadcastsInDim ⟨2, ![1, O]⟩ ![1])
    (b : (⟨1, ![O]⟩ : Shape).Idx → α) (c : Fin 1) (j : Fin O) :
    broadcastInDim ⟨2, ![1, O]⟩ ![1] h b (ix2 c j) = b (ix1 j) :=
  broadcastInDim_apply _ h b (ix2 c j) (ix1 j) (fun a => match a with
    | ⟨0, _⟩ => by
      show j.val = if O = 1 then 0 else j.val
      split
      · have := j.isLt; omega
      · rfl)

/-- A row [1, O] repeated along the first axis to [N, O]: the entry at (r, j) is the row's entry at (0, j). -/
theorem rowBcast_apply {N O : Nat} (h : (⟨2, ![1, O]⟩ : Shape).BroadcastsInDim ⟨2, ![N, O]⟩ ![0, 1])
    (v : (⟨2, ![1, O]⟩ : Shape).Idx → α) (r : Fin N) (j : Fin O) :
    broadcastInDim ⟨2, ![N, O]⟩ ![0, 1] h v (ix2 r j) = v (ix2 0 j) :=
  broadcastInDim_apply _ h v (ix2 r j) (ix2 0 j) (fun a => match a with
    | ⟨0, _⟩ => by
      show 0 = if (1 : Nat) = 1 then 0 else r.val
      rw [if_pos rfl]
    | ⟨1, _⟩ => by
      show j.val = if O = 1 then 0 else j.val
      split
      · have := j.isLt; omega
      · rfl)

end Layout

/-! ## The host's pointwise operations at an entry -/

section Pointwise
variable {s : Shape} {φ : FTy}

/-- The host's quotient at an entry is the extended reals' division of the entries. -/
theorem hostDivf_apply (a b : FVec Ideal s φ) (i : s.Idx) : Host.divf (F := Ideal) a b i = Ideal.div (a i) (b i) := rfl
/-- The host's exponential at an entry is the exponential of the entry. -/
theorem hostExp_apply (a : FVec Ideal s φ) (i : s.Idx) : Host.exp (F := Ideal) a i = Ideal.exp (a i) := rfl
/-- The host's logarithm at an entry is the logarithm of the entry. -/
theorem hostLog_apply (a : FVec Ideal s φ) (i : s.Idx) : Host.log (F := Ideal) a i = Ideal.log (a i) := rfl

end Pointwise

/-! ## The reduction's initial value -/

/-- The word 0xFF800000 is f32's -∞: the least extended real. -/
theorem ofBits_negInf_f32 : Ideal.ofBits .f32 0xFF800000#32 = ⊥ := by simp [Ideal.ofBits, Ideal.ieee]

/-! ## The matrix products at an entry -/

/-- The [100000, 128] × [128, 128] product at (r, j): the sum over q of A (r, q) · W (q, j). -/
theorem dot128_apply (A : FVec Ideal S100000x128 .f32) (W : FVec Ideal S128x128 .f32) (r : Fin 100000) (j : Fin 128) :
    Host.dotGeneral (F := Ideal) dot_S100000x128_S128x128_S100000x128_1_0_0_1_n_n none A W (ix2 r j)
      = ∑ q : Fin 128, A (ix2 r q) * W (ix2 q j) :=
  Cert.LibDotPlain.dotGeneral_plain 100000 128 128 none .single A W r j

/-- The [100000, 128] × [128, 64] product at (r, j): the sum over q of A (r, q) · W (q, j). -/
theorem dot64_apply (A : FVec Ideal S100000x128 .f32) (W : FVec Ideal S128x64 .f32) (r : Fin 100000) (j : Fin 64) :
    Host.dotGeneral (F := Ideal) dot_S100000x128_S128x64_S100000x64_1_0_0_1_n_n none A W (ix2 r j)
      = ∑ q : Fin 128, A (ix2 r q) * W (ix2 q j) :=
  Cert.LibDotPlain.dotGeneral_plain 100000 128 64 none .single A W r j

/-! ## The pre-activations at an entry -/

/-- The first layer's pre-activation at (r, j) is the specification's: neighbour term, bias at j, root term. -/
theorem pre1_apply (M x : FVec Ideal S100000x128 .f32) (Wl : FVec Ideal S128x128 .f32) (b : FVec Ideal S128 .f32)
    (Wr : FVec Ideal S128x128 .f32) (r : Fin 100000) (j : Fin 128) :
    pre1 (F := Ideal) M x Wl b Wr (ix2 r j) = Cert.Sage.lin M x Wl Wr b r j := by
  unfold pre1 Cert.Sage.lin
  rw [addf_apply, addf_apply, dot128_apply, dot128_apply, rowBcast_apply, unitRow_apply]

/-- The second layer's pre-activation at (r, j) is the specification's. -/
theorem pre2_apply (M x : FVec Ideal S100000x128 .f32) (Wl : FVec Ideal S128x64 .f32) (b : FVec Ideal S64 .f32)
    (Wr : FVec Ideal S128x64 .f32) (r : Fin 100000) (j : Fin 64) :
    pre2 (F := Ideal) M x Wl b Wr (ix2 r j) = Cert.Sage.lin M x Wl Wr b r j := by
  unfold pre2 Cert.Sage.lin
  rw [addf_apply, addf_apply, dot64_apply, dot64_apply, rowBcast_apply, unitRow_apply]

/-! ## The two reductions along the feature axis -/

/-- Each row's maximum at r: the fold of `max` from ⊥ over the row's 64 entries. The reduction starts from -∞, which
    is ⊥, and the second maximum against -∞ is `max ⊥ x = x`. -/
theorem rowMaxH_apply (z : FVec Ideal S100000x64 .f32) (r : Fin 100000) :
    rowMaxH (F := Ideal) z (ix1 r) = Cert.Sage.rowMax (fun r j => z (ix2 r j)) r := by
  have h : S100000x64.Reduces [1] S100000 := by decide
  unfold rowMaxH Cert.Sage.rowMax
  rw [maximumf_apply, splat_apply, constant_apply, ofBits_negInf_f32, max_bot_left,
    Host.reduce_eq_fold_single (FloatOps.maximumf (F := Ideal) (φ := .f32)) z _ reducesTo_S100000x64_S100000_d1 h h_S_ (ix1 r),
    constant_apply, ofBits_negInf_f32]
  refine congrArg (fun f => Finset.fold max ⊥ f Finset.univ) (funext fun k => congrArg z (funext fun a => Fin.ext ?_))
  match a with
  | ⟨0, _⟩ => rfl
  | ⟨1, _⟩ => rfl

/-- Each row's sum from 0, at r: the sum of the row's 64 entries. -/
theorem rowSum_apply (y : FVec Ideal S100000x64 .f32) (r : Fin 100000) :
    Host.reduceAdd (F := Ideal) y (constant (F := Ideal) S_ .f32 0x00000000#32) reducesTo_S100000x64_S100000_d1 h_S_ (ix1 r)
      = ∑ j : Fin 64, y (ix2 r j) := by
  have h : S100000x64.Reduces [1] S100000 := by decide
  simp only [Host.reduceAdd, Ideal.hostReduceAdd_def]
  rw [Ideal.hostReduceAdd_single reducesTo_S100000x64_S100000_d1 h, constant_apply, Ideal.ofBits_zero_f32, zero_add]
  refine Finset.sum_congr rfl fun k _ => congrArg y (funext fun a => Fin.ext ?_)
  match a with
  | ⟨0, _⟩ => rfl
  | ⟨1, _⟩ => rfl

/-! ## The log-softmax at an entry -/

/-- The array shifted by its rows' maxima, at (r, j). -/
theorem shiftH_apply (z : FVec Ideal S100000x64 .f32) (r : Fin 100000) (j : Fin 64) :
    shiftH (F := Ideal) z (ix2 r j) = z (ix2 r j) - Cert.Sage.rowMax (fun r j => z (ix2 r j)) r := by
  unfold shiftH
  rw [subf_apply, colBcast_apply, unitCol_apply, rowMaxH_apply]

/-- The log-softmax at (r, j): the shifted entry minus the logarithm of the row's sum of exponentials of the shifted
    entries. -/
theorem lsm_apply (z : FVec Ideal S100000x64 .f32) (r : Fin 100000) (j : Fin 64) :
    lsm (F := Ideal) z (ix2 r j)
      = (z (ix2 r j) - Cert.Sage.rowMax (fun r j => z (ix2 r j)) r)
        - Ideal.log (∑ k : Fin 64, Ideal.exp (z (ix2 r k) - Cert.Sage.rowMax (fun r j => z (ix2 r j)) r)) := by
  unfold lsm
  rw [subf_apply, shiftH_apply, colBcast_apply]
  rw [hostLog_apply, unitCol_apply, rowSum_apply]
  refine congrArg (fun s => _ - Ideal.log s) (Finset.sum_congr rfl fun k _ => ?_)
  rw [hostExp_apply, shiftH_apply]

/-! ## The three host functions are the specification's -/

/-- The mean is the row-wise quotient by the column of divisors. -/
theorem mean_eq (A : FVec Ideal S100000x128 .f32) (d : FVec Ideal S100000 .f32) :
    mean (F := Ideal) A d = Cert.Sage.meanDiv A d := by
  funext e
  obtain ⟨r, j, rfl⟩ : ∃ (r : Fin 100000) (j : Fin 128), e = ix2 r j := ⟨e 0, e 1, eq_ix2 e⟩
  unfold mean
  rw [hostDivf_apply, colBcast_apply, unitCol_apply]
  rfl

/-- The first layer is the pre-activation clamped below at zero. -/
theorem lay1_eq (M x : FVec Ideal S100000x128 .f32) (Wl : FVec Ideal S128x128 .f32) (b : FVec Ideal S128 .f32) (Wr : FVec Ideal S128x128 .f32) :
    lay1 (F := Ideal) M x Wl b Wr = Cert.Sage.layer1 M x Wl Wr b := by
  funext e
  obtain ⟨r, j, rfl⟩ : ∃ (r : Fin 100000) (j : Fin 128), e = ix2 r j := ⟨e 0, e 1, eq_ix2 e⟩
  unfold lay1
  rw [maximumf_apply, pre1_apply, splat_apply, constant_apply, Ideal.ofBits_zero_f32]
  rfl

/-- The second layer is the log-softmax, along the feature axis, of the pre-activation. -/
theorem lay2_eq (M x : FVec Ideal S100000x128 .f32) (Wl : FVec Ideal S128x64 .f32) (b : FVec Ideal S64 .f32) (Wr : FVec Ideal S128x64 .f32) :
    lsm (F := Ideal) (pre2 M x Wl b Wr) = Cert.Sage.layer2 M x Wl Wr b := by
  funext e
  obtain ⟨r, j, rfl⟩ : ∃ (r : Fin 100000) (j : Fin 64), e = ix2 r j := ⟨e 0, e 1, eq_ix2 e⟩
  have hz : (fun (r : Fin 100000) (j : Fin 64) => pre2 (F := Ideal) M x Wl b Wr (ix2 r j)) = Cert.Sage.lin M x Wl Wr b :=
    funext fun r => funext fun j => pre2_apply M x Wl b Wr r j
  rw [lsm_apply, hz]
  simp only [pre2_apply]
  rfl

end Cert.ReferenceIdeal.HostValue

end
-- ==== Proof.RefNet.lean ====
/-
  What the reference program computes: its result buffer as one function of the arguments.

  The run, read stretch by stretch, leaves in the result buffer the log-softmax of the second pre-activation of the mean
  aggregation of the hidden features. Index by index over the extended reals the host's mean is the row-wise quotient,
  its first layer the specification's first layer and its log-softmax of the second pre-activation the specification's
  second layer, so the result is

      layer2 (meanDiv (agg h) dmax) h W2_l W2_r b2,   h = layer1 (meanDiv (agg x) dmax) x W1_l W1_r b1,

  of the arguments as launched.
-/
import proofs.«154245_j29729763623350_1_alg».proof.Proof.RefValue
import proofs.«154245_j29729763623350_1_alg».proof.Proof.RefHostValue

noncomputable section

namespace Cert.ReferenceIdeal.Net

open Cert.ReferenceIdeal Cert.ReferenceIdeal.Gen Cert.ReferenceIdeal.ValueP Cert.ReferenceIdeal.HostFn
open Idealize.ShloMosaic Idealize.ShloMosaic.TcCoe Idealize.SL.Sem Idealize.ShloMosaic.StableHlo

/-- The hidden features: the first layer of the mean aggregation of the input rows. -/
def hidden (x : FVec Ideal S100000x128 .f32) (e : IVec S2x1600000 32) (Wl : FVec Ideal S128x128 .f32) (b : FVec Ideal S128 .f32)
    (Wr : FVec Ideal S128x128 .f32) : FVec Ideal S100000x128 .f32 :=
  Cert.Sage.layer1 (Cert.Sage.meanDiv (agg x e) (dmax e)) x Wl Wr b

/-- The network's output: the second layer of the mean aggregation of the hidden features. -/
def net (x : FVec Ideal S100000x128 .f32) (e : IVec S2x1600000 32) (W1l : FVec Ideal S128x128 .f32) (b1 : FVec Ideal S128 .f32)
    (W1r : FVec Ideal S128x128 .f32) (W2l : FVec Ideal S128x64 .f32) (b2 : FVec Ideal S64 .f32) (W2r : FVec Ideal S128x64 .f32) :
    FVec Ideal S100000x64 .f32 :=
  Cert.Sage.layer2 (Cert.Sage.meanDiv (agg (hidden x e W1l b1 W1r) e) (dmax e)) (hidden x e W1l b1 W1r) W2l W2r b2

/-- The result buffer after the program's 84 operations, from any contents: the network's output of the arguments'
    contents. -/
theorem out_eq (V : Valuation τ sig (Elt Ideal)) :
    after (ops (F := Ideal)) V (Proc.devRef .tc main_v55)
      = net (V (Proc.devRef .tc main_arg0)) (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) := by
  rw [Cert.ReferenceIdeal.RunValue.out_eq, Cert.ReferenceIdeal.HostValue.lay2_eq, Cert.ReferenceIdeal.HostValue.mean_eq,
    Cert.ReferenceIdeal.HostValue.lay1_eq, Cert.ReferenceIdeal.HostValue.mean_eq]
  rfl

end Cert.ReferenceIdeal.Net

end
-- ==== Proof.lean ====
/-
  A two-layer GraphSAGE network: the kernel program against its jnp reference, over the extended reals.

  Both programs aggregate, for every node, the feature rows of the sources of its incoming edges (a gather and a
  scatter-add on the host, the same operations on the same edge list in both), take the mean over the clamped in-degree,
  and apply a layer `(mean · W_l) + b + (x · W_r)`: the first clamped below at zero, the second followed by a log-softmax
  along the features; the second layer aggregates the first layer's output.

  They differ in three ways, none of which changes a value over the extended reals.
  * The kernel program takes the mean as a PRODUCT with the reciprocal `1 / max (deg, 1)`, the reference as a QUOTIENT by
    `max (deg, 1)`. Off zero the quotient is the product with the inverse, and a maximum with one is never zero, so the
    two agree at every value of the sum, the infinities included: no input needs to be finite for this.
  * The kernel program applies the layers inside two launches, 5000 node rows per grid point, with the matrix products
    accumulated into a zero block and the factors rounded to a narrower float type first; the reference applies them to
    the whole arrays. A layer reads only its own row of the two row operands, the rounding is the identity over the
    extended reals and the zero block adds nothing, so each launch's output array is the layer of the whole arrays.
  * The reference's log-softmax takes one more maximum against `-∞`, which is the identity.
  So both result buffers hold the same function `net` of the arguments, and the two programs' gather and scatter
  dimension records, printed once per program, are the same records.

  The three frames are the generated frame certificates of the two kernel programs and the reference's run with its
  result dropped; the ideal pass rewrote nothing, so `preserves` has nothing to show.
-/
import proofs.«154245_j29729763623350_1_alg».proof.Defs
import proofs.«154245_j29729763623350_1_alg».proof.Proof.Gen.Kernel
import proofs.«154245_j29729763623350_1_alg».proof.Proof.Gen.Kernel.Frame
import proofs.«154245_j29729763623350_1_alg».proof.Proof.Gen.KernelIdeal
import proofs.«154245_j29729763623350_1_alg».proof.Proof.Gen.KernelIdeal.Frame
import proofs.«154245_j29729763623350_1_alg».proof.Proof.Gen.ReferenceIdeal
import proofs.«154245_j29729763623350_1_alg».proof.Proof.Gen.Pre_finite_inputs
import proofs.«154245_j29729763623350_1_alg».proof.Proof.KernelValue
import proofs.«154245_j29729763623350_1_alg».proof.Proof.RefNet
import Idealize.ShloMosaic.Adequacy
import Idealize.ShloMosaic.Init

noncomputable section

namespace Cert.Proof

open Idealize.ShloMosaic Idealize.SL.Sem

/-! ## One function on both sides -/

/-- The two programs print the same gather, scatter and slice records, so the kernel program's aggregation over the
    rows of the edge list is the reference's. -/
theorem agg_eq (y : FVec Ideal Cert.KernelIdeal.S100000x128 .f32) (e : IVec Cert.KernelIdeal.S2x1600000 32) :
    Cert.KernelIdeal.HostFn.aggOf y (Cert.KernelIdeal.HostFn.edgeRow0 e) (Cert.KernelIdeal.HostFn.edgeRow1 e)
      = Cert.ReferenceIdeal.HostFn.agg y e := rfl

/-- Likewise the clamped in-degree. -/
theorem dmax_eq (e : IVec Cert.KernelIdeal.S2x1600000 32) :
    Cert.KernelIdeal.HostFn.dmaxOf (F := Ideal) (Cert.KernelIdeal.HostFn.edgeRow1 e) = Cert.ReferenceIdeal.HostFn.dmax e := rfl

/-- So the two programs' networks are one function of the arguments. -/
theorem net_eq (x : FVec Ideal Cert.KernelIdeal.S100000x128 .f32) (e : IVec Cert.KernelIdeal.S2x1600000 32)
    (W1l : FVec Ideal Cert.KernelIdeal.S128x128 .f32) (b1 : FVec Ideal Cert.KernelIdeal.S128 .f32)
    (W1r : FVec Ideal Cert.KernelIdeal.S128x128 .f32) (W2l : FVec Ideal Cert.KernelIdeal.S128x64 .f32)
    (b2 : FVec Ideal Cert.KernelIdeal.S64 .f32) (W2r : FVec Ideal Cert.KernelIdeal.S128x64 .f32) :
    Cert.ReferenceIdeal.Net.net x e W1l b1 W1r W2l b2 W2r = Cert.KernelIdeal.Net.net x e W1l b1 W1r W2l b2 W2r := by
  unfold Cert.KernelIdeal.Net.net Cert.KernelIdeal.Net.hidden
  rw [agg_eq, dmax_eq, agg_eq]
  rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result buffer at `net` of the arguments: the kernel program by its launches' value, the
    reference by its run read stretch by stretch, from memories that agree on the arguments. -/
theorem algebraic : Cert.algebraic_KernelIdeal_ReferenceIdeal := by
  intro m ρ m' ρ' _ hagree
  refine ⟨fun c => Cert.KernelIdeal.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Net.out_eq m ρ c), (h c).2⟩) (Cert.KernelIdeal.GenRun.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Net.out_eq]
    show Cert.ReferenceIdeal.Net.net (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact net_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
